-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S10000x16 : Shape := ⟨2, ![10000, 16]⟩
abbrev S128x32 : Shape := ⟨2, ![128, 32]⟩
abbrev S32x16 : Shape := ⟨2, ![32, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S10000x16 : S_.BroadcastsInDim S10000x16 (![] : Fin 0 → Fin S10000x16.rank)
  reducesTo_S10000x16_S_d0_1 : S10000x16.ReducesTo [0, 1] S_
  bcast_S_S128x32 : S_.BroadcastsInDim S128x32 (![] : Fin 0 → Fin S128x32.rank)
  reducesTo_S128x32_S_d0_1 : S128x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg4 : FVec F S32x16 .f32) (main_arg5 : FVec F S32x16 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32x16 .f32 := Host.absf main_arg5
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S10000x16 .f32) (main_arg3 : FVec F S128x32 .f32) (main_arg4 : FVec F S32x16 .f32) (main_arg5 : FVec F S32x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x16 .f32 := Host.absf main_arg2
  let main_cst_2 : FVec F S_ .f32 := constant S_ .f32 0x7F800000#32
  let main_v10 : FVec F S10000x16 .f32 := broadcastInDim S10000x16 ![] bcast_S_S10000x16 main_cst_2
  let main_v11 : IVec S10000x16 1 := cmpf .olt main_v9 main_v10
  let main_c_3 : IVec S_ 1 := constantI S_ 1 1#1
  let main_v12 : IVec S_ 1 := (fun x v => Host.reduce IntOp.andi x v reducesTo_S10000x16_S_d0_1 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S10000x16 : Shape := ⟨2, ![10000, 16]⟩
abbrev S128x32 : Shape := ⟨2, ![128, 32]⟩
abbrev S32x16 : Shape := ⟨2, ![32, 16]⟩
abbrev S32x32 : Shape := ⟨2, ![32, 32]⟩
abbrev S10000x32 : Shape := ⟨2, ![10000, 32]⟩
abbrev S400x10000 : Shape := ⟨2, ![400, 10000]⟩
abbrev S400x32 : Shape := ⟨2, ![400, 32]⟩
abbrev S400x16 : Shape := ⟨2, ![400, 16]⟩

abbrev nBuf : Space → Nat
  | .hbm => 11
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x16, .f32⟩
  | .hbm, ⟨3, _⟩ => ⟨S128x32, .f32⟩
  | .hbm, ⟨4, _⟩ => ⟨S32x16, .f32⟩
  | .hbm, ⟨5, _⟩ => ⟨S32x16, .f32⟩
  | .hbm, ⟨6, _⟩ => ⟨S32x32, .f32⟩
  | .hbm, ⟨7, _⟩ => ⟨S10000x32, .f32⟩
  | .hbm, ⟨8, _⟩ => ⟨S10000x32, .f32⟩
  | .hbm, ⟨9, _⟩ => ⟨S10000x16, .f32⟩
  | .hbm, ⟨10, _⟩ => ⟨S10000x10000, .f32⟩
  | .local _ .vmem, ⟨0, _⟩ => ⟨S10000x128, .f32⟩
  | .local _ .vmem, ⟨1, _⟩ => ⟨S128x32, .f32⟩
  | .local _ .vmem, ⟨2, _⟩ => ⟨S10000x32, .f32⟩
  | .local _ .vmem, ⟨3, _⟩ => ⟨S400x10000, .f32⟩
  | .local _ .vmem, ⟨4, _⟩ => ⟨S400x10000, .f32⟩
  | .local _ .vmem, ⟨5, _⟩ => ⟨S10000x32, .f32⟩
  | .local _ .vmem, ⟨6, _⟩ => ⟨S32x32, .f32⟩
  | .local _ .vmem, ⟨7, _⟩ => ⟨S400x32, .f32⟩
  | .local _ .vmem, ⟨8, _⟩ => ⟨S400x32, .f32⟩
  | .local _ .vmem, ⟨9, _⟩ => ⟨S400x10000, .f32⟩
  | .local _ .vmem, ⟨10, _⟩ => ⟨S400x10000, .f32⟩
  | .local _ .vmem, ⟨11, _⟩ => ⟨S10000x32, .f32⟩
  | .local _ .vmem, ⟨12, _⟩ => ⟨S400x16, .f32⟩
  | .local _ .vmem, ⟨13, _⟩ => ⟨S400x16, .f32⟩
  | .local _ .vmem, ⟨14, _⟩ => ⟨S400x16, .f32⟩
  | .local _ .vmem, ⟨15, _⟩ => ⟨S400x16, .f32⟩
  | .local _ .vmem, ⟨16, _⟩ => ⟨S400x16, .f32⟩
  | .local _ .vmem, ⟨17, _⟩ => ⟨S400x16, .f32⟩
  | .local _ .vmem, ⟨18, _⟩ => ⟨S10000x16, .f32⟩
  | .local _ .vmem, ⟨19, _⟩ => ⟨S400x10000, .f32⟩
  | .local _ .vmem, ⟨20, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  concatenates_S32x16_S32x16_S32x32_d1 : Shape.Concatenates [S32x16, S32x16] S32x32 1
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  inb_S400x10000_S400x10000_0_0 : ∀ a, (![0, 0] : Fin 2 → Nat) a + S400x10000.size a ≤ S400x10000.size a
  h_S400x10000 : 0 < S400x10000.numel
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S400x32_S400x32_0_0 : ∀ a, (![0, 0] : Fin 2 → Nat) a + S400x32.size a ≤ S400x32.size a
  h_S400x32 : 0 < S400x32.numel
  inb_S400x16_S400x16_0_0 : ∀ a, (![0, 0] : Fin 2 → Nat) a + S400x16.size a ≤ S400x16.size a
  h_S400x16 : 0 < S400x16.numel
  slices_S400x32_o0_16_S400x16 : S400x32.Slices ![0, 16] S400x16
  slices_S400x32_o0_0_S400x16 : S400x32.Slices ![0, 0] S400x16
  shapeCasts_S400x16_S400x16 : S400x16.ShapeCasts S400x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x32_S400x32_1_0_0_1_n_n_wf : DotDims.WF S400x32 S32x32 S400x32 [1] [0] [0] [1] [] []
  dot_S400x16_S10000x16_S400x10000_1_1_0_0_n_n_wf : DotDims.WF S400x16 S10000x16 S400x10000 [1] [1] [0] [0] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .f32 = 32 ∨ (Rect.block (s := S10000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x32.size a ≤ S10000x32.size a
  hwx1_3 : ∀ i : grid1.Coords, EltTy.bits .f32 = 32 ∨ (Rect.block (s := S10000x32) S400x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .f32 = 32 ∨ (Rect.block (s := S10000x32) S10000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x16.size a ≤ S10000x16.size a
  hwx2_2 : ∀ i : grid2.Coords, EltTy.bits .f32 = 32 ∨ (Rect.block (s := S10000x16) S400x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x16.size a ≤ S10000x16.size a
  hwx2_3 : ∀ i : grid2.Coords, EltTy.bits .f32 = 32 ∨ (Rect.block (s := S10000x16) S400x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x16.size a ≤ S10000x16.size a
  hwx3_0 : ∀ i : grid3.Coords, EltTy.bits .f32 = 32 ∨ (Rect.block (s := S10000x16) S400x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .f32 = 32 ∨ (Rect.block (s := S10000x16) S10000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x10000.size a ≤ S10000x10000.size a
  hwx3_2 : ∀ i : grid3.Coords, EltTy.bits .f32 = 32 ∨ (Rect.block (s := S10000x10000) S400x10000.size (cc3_transform_2 i) (hinb3_2 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf
def dot_S400x16_S10000x16_S400x10000_1_1_0_0_n_n : DotDims S400x16 S10000x16 S400x10000 where
  lhsContracting := [1]
  rhsContracting := [1]
  lhsNonContracting := [0]
  rhsNonContracting := [0]
  lhsBatch := []
  rhsBatch := []
  wf := dot_S400x16_S10000x16_S400x10000_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S400x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S400x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S400x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v3) S400x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S400x10000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000x16 : Shape := ⟨2, ![10000, 16]⟩
abbrev S128x32 : Shape := ⟨2, ![128, 32]⟩
abbrev S32x16 : Shape := ⟨2, ![32, 16]⟩
abbrev S10000x32 : Shape := ⟨2, ![10000, 32]⟩
abbrev S_ : Shape := ⟨0, ![]⟩
abbrev S16x10000 : Shape := ⟨2, ![16, 10000]⟩

abbrev nBuf : Space → Nat
  | .hbm => 28
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x16, .f32⟩
  | .hbm, ⟨3, _⟩ => ⟨S128x32, .f32⟩
  | .hbm, ⟨4, _⟩ => ⟨S32x16, .f32⟩
  | .hbm, ⟨5, _⟩ => ⟨S32x16, .f32⟩
  | .hbm, ⟨6, _⟩ => ⟨S10000x32, .f32⟩
  | .hbm, ⟨7, _⟩ => ⟨S10000x32, .f32⟩
  | .hbm, ⟨8, _⟩ => ⟨S_, .f32⟩
  | .hbm, ⟨9, _⟩ => ⟨S10000x32, .f32⟩
  | .hbm, ⟨10, _⟩ => ⟨S10000x32, .f32⟩
  | .hbm, ⟨11, _⟩ => ⟨S10000x16, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S10000x16, .f32⟩
  | .hbm, ⟨18, _⟩ => ⟨S16x10000, .f32⟩
  | .hbm, ⟨19, _⟩ => ⟨S10000x10000, .f32⟩
  | .hbm, ⟨20, _⟩ => ⟨S10000x10000, .f32⟩
  | .hbm, ⟨21, _⟩ => ⟨S10000x10000, .f32⟩
  | .hbm, ⟨22, _⟩ => ⟨S_, .f32⟩
  | .hbm, ⟨23, _⟩ => ⟨S10000x10000, .f32⟩
  | .hbm, ⟨24, _⟩ => ⟨S10000x10000, .f32⟩
  | .hbm, ⟨25, _⟩ => ⟨S_, .f32⟩
  | .hbm, ⟨26, _⟩ => ⟨S10000x10000, .f32⟩
  | .hbm, ⟨27, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  transposes_S10000x16_S16x10000_1_0 : S10000x16.Transposes [1, 0] S16x10000
  bcast_S_S10000x10000 : S_.BroadcastsInDim S10000x10000 (![] : Fin 0 → Fin S10000x10000.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.K.Body0.lean ====
/-
  Region 0 of @main (the un-gridded call that forms t0 = x · W0), at the contents `V` the region is entered with:
  the two operands are staged whole, the body loads both, multiplies them on the matrix unit into a zero
  accumulator and stores the product over the whole output buffer. What the output buffer holds after the body is
  therefore one piece covering it (`out0_2`); the proof data name that piece at the single point, and the body
  obligation is the body's run on buffers holding the operands' blocks.
-/
import proofs.«179463_g63213328662976_cont_sun_m_190_11_alg».proof.Proof.Gen.Kernel.Launch
import proofs.«179463_g63213328662976_cont_sun_m_190_11_alg».proof.Proof.Gen.Kernel.Skeleton
import proofs.«179463_g63213328662976_cont_sun_m_190_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_x : Rect S10000x128 := Rect.unit (s := S10000x128) ![0, 0] S10000x128.size inb_S10000x128_S10000x128_0_0
abbrev r0_w : Rect S128x32 := Rect.unit (s := S128x32) ![0, 0] S128x32.size inb_S128x32_S128x32_0_0
abbrev r0_o : Rect S10000x32 := Rect.unit (s := S10000x32) ![0, 0] S10000x32.size inb_S10000x32_S10000x32_0_0

/-- The output buffer after the body: its one store, of the product of the two loaded operands. -/
def out0_2 (x0 : Vec F S10000x128 .f32) (x1 : Vec F S128x32 .f32) : Vec F S10000x32 .f32 :=
  View.canon [⟨r0_o, k0_pay1 (View.ld x0 r0_x) (View.ld x1 r0_w)⟩]

/-- The store covers the buffer. -/
theorem cover0_2 (p0 : Vec F S10000x32 .f32) (y : S10000x32.Idx) :
    ∃ pc ∈ ([⟨r0_o, p0⟩] : List (View.Piece (Elt F) S10000x32 .f32)), y ∈ pc.1.set :=
  View.cover_of_tiled [⟨r0_o, p0⟩] S10000x32.size (by rfl) y

set_option maxHeartbeats 1000000 in
/-- The body on whole staging buffers, the operands' at `x0`, `x1` and the output's at anything, leaves the operands'
    as they were and the output's at `out0_2 x0 x1`. -/
theorem sound_kernel0 (c : Dev nD) (E : Set ℕ) (arg0 : Memref sig .tc .vmem S10000x128 .f32) (harg0 : arg0.IsWhole)
    (arg1 : Memref sig .tc .vmem S128x32 .f32) (harg1 : arg1.IsWhole) (arg2 : Memref sig .tc .vmem S10000x32 .f32) (harg2 : arg2.IsWhole)
    (x0 : Vec F S10000x128 .f32) (x1 : Vec F S128x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__t0_kernel arg0 harg0 arg1 harg1 arg2 harg2) K := by
  simp only [cc0__t0_kernel_eq_skeleton]; unfold cc0__t0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body each operand's
    buffer at its block and the output's at `out0_2` of the operands' blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.Body1.lean ====
/-
  Region 1 of @main (25 grid points; point t computes rows 400·t … 400·t + 399 of c = max (adj · t0) 0 · [W_mu | W_logstd]),
  at the contents `V` the region is entered with. Per point the body loads the 400-row block of adj, the whole of t0 and
  the whole 32 × 32 weight matrix, and stores one 400 × 32 piece covering the output block. The two whole operands are
  fetched once and found again at every later point: their block index never moves.
-/
import proofs.«179463_g63213328662976_cont_sun_m_190_11_alg».proof.Proof.Gen.Kernel.Launch
import proofs.«179463_g63213328662976_cont_sun_m_190_11_alg».proof.Proof.Gen.Kernel.Skeleton
import proofs.«179463_g63213328662976_cont_sun_m_190_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_a : Rect S400x10000 := Rect.unit (s := S400x10000) ![0, 0] S400x10000.size inb_S400x10000_S400x10000_0_0
abbrev r1_t : Rect S10000x32 := Rect.unit (s := S10000x32) ![0, 0] S10000x32.size inb_S10000x32_S10000x32_0_0
abbrev r1_w : Rect S32x32 := Rect.unit (s := S32x32) ![0, 0] S32x32.size inb_S32x32_S32x32_0_0
abbrev r1_o : Rect S400x32 := Rect.unit (s := S400x32) ![0, 0] S400x32.size inb_S400x32_S400x32_0_0

/-- The output buffer after the body: its one store. -/
def out1_3 (x0 : Vec F S400x10000 .f32) (x1 : Vec F S10000x32 .f32) (x2 : Vec F S32x32 .f32) : Vec F S400x32 .f32 :=
  View.canon [⟨r1_o, k1_pay1 (View.ld x0 r1_a) (View.ld x1 r1_t) (View.ld x2 r1_w)⟩]

/-- The store covers the buffer. -/
theorem cover1_3 (p0 : Vec F S400x32 .f32) (y : S400x32.Idx) :
    ∃ pc ∈ ([⟨r1_o, p0⟩] : List (View.Piece (Elt F) S400x32 .f32)), y ∈ pc.1.set :=
  View.cover_of_tiled [⟨r1_o, p0⟩] S400x32.size (by rfl) y

set_option maxHeartbeats 1000000 in
/-- The body on whole staging buffers, the operands' at `x0`, `x1`, `x2` and the output's at anything, leaves the
    operands' as they were and the output's at `out1_3 x0 x1 x2`. -/
theorem sound_kernel1 (c : Dev nD) (E : Set ℕ) (i : grid1.Coords) (arg1 : Memref sig .tc .vmem S400x10000 .f32) (harg1 : arg1.IsWhole)
    (arg2 : Memref sig .tc .vmem S10000x32 .f32) (harg2 : arg2.IsWhole) (arg3 : Memref sig .tc .vmem S32x32 .f32) (harg3 : arg3.IsWhole)
    (arg4 : Memref sig .tc .vmem S400x32 .f32) (harg4 : arg4.IsWhole)
    (x0 : Vec F S400x10000 .f32) (x1 : Vec F S10000x32 .f32) (x2 : Vec F S32x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__pass1_kernel i arg1 harg1 arg2 harg2 arg3 harg3 arg4 harg4) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body each operand's
    buffer at its block and the output's at `out1_3` of the operands' blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.K.Body2.lean ====
/-
  Region 2 of @main (25 grid points; point t computes rows 400·t … 400·t + 399 of z = noise ⊙ exp (adj · c)[:, 16:] + (adj · c)[:, :16]),
  at the contents `V` the region is entered with. Per point the body loads the 400-row block of adj, the whole of c and the
  400-row block of the noise, and stores one 400 × 16 piece covering the output block. The whole operand c is fetched once
  and found again at every later point: its block index never moves.
-/
import proofs.«179463_g63213328662976_cont_sun_m_190_11_alg».proof.Proof.Gen.Kernel.Launch
import proofs.«179463_g63213328662976_cont_sun_m_190_11_alg».proof.Proof.Gen.Kernel.Skeleton
import proofs.«179463_g63213328662976_cont_sun_m_190_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_a : Rect S400x10000 := Rect.unit (s := S400x10000) ![0, 0] S400x10000.size inb_S400x10000_S400x10000_0_0
abbrev r2_c : Rect S10000x32 := Rect.unit (s := S10000x32) ![0, 0] S10000x32.size inb_S10000x32_S10000x32_0_0
abbrev r2_n : Rect S400x16 := Rect.unit (s := S400x16) ![0, 0] S400x16.size inb_S400x16_S400x16_0_0

/-- The output buffer after the body: its one store. -/
def out2_3 (x0 : Vec F S400x10000 .f32) (x1 : Vec F S10000x32 .f32) (x2 : Vec F S400x16 .f32) : Vec F S400x16 .f32 :=
  View.canon [⟨r2_n, k2_pay1 (View.ld x0 r2_a) (View.ld x1 r2_c) (View.ld x2 r2_n)⟩]

/-- The store covers the buffer. -/
theorem cover2_3 (p0 : Vec F S400x16 .f32) (y : S400x16.Idx) :
    ∃ pc ∈ ([⟨r2_n, p0⟩] : List (View.Piece (Elt F) S400x16 .f32)), y ∈ pc.1.set :=
  View.cover_of_tiled [⟨r2_n, p0⟩] S400x16.size (by rfl) y

set_option maxHeartbeats 1000000 in
/-- The body on whole staging buffers, the operands' at `x0`, `x1`, `x2` and the output's at anything, leaves the
    operands' as they were and the output's at `out2_3 x0 x1 x2`. -/
theorem sound_kernel2 (c : Dev nD) (E : Set ℕ) (i : grid2.Coords) (arg1 : Memref sig .tc .vmem S400x10000 .f32) (harg1 : arg1.IsWhole)
    (arg2 : Memref sig .tc .vmem S10000x32 .f32) (harg2 : arg2.IsWhole) (arg3 : Memref sig .tc .vmem S400x16 .f32) (harg3 : arg3.IsWhole)
    (arg4 : Memref sig .tc .vmem S400x16 .f32) (harg4 : arg4.IsWhole)
    (x0 : Vec F S400x10000 .f32) (x1 : Vec F S10000x32 .f32) (x2 : Vec F S400x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__pass2_kernel i arg1 harg1 arg2 harg2 arg3 harg3 arg4 harg4) K := by
  simp only [cc2__pass2_kernel_eq_skeleton]; unfold cc2__pass2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body each operand's
    buffer at its block and the output's at `out2_3` of the operands' blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.K.Body3.lean ====
/-
  Region 3 of @main (25 grid points; point t computes rows 400·t … 400·t + 399 of logistic (z · zᵀ)), at the contents `V` the
  region is entered with. Both operands are windows on ONE array, z: the 400-row block of it and the whole of it. Per point
  the body loads both, contracts their column axes on the matrix unit and stores one 400 × 10000 piece covering the output
  block. The array being read through two windows, each window holds half of its share: the proof data say so (`q`).
-/
import proofs.«179463_g63213328662976_cont_sun_m_190_11_alg».proof.Proof.Gen.Kernel.Launch
import proofs.«179463_g63213328662976_cont_sun_m_190_11_alg».proof.Proof.Gen.Kernel.Skeleton
import proofs.«179463_g63213328662976_cont_sun_m_190_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_b : Rect S400x16 := Rect.unit (s := S400x16) ![0, 0] S400x16.size inb_S400x16_S400x16_0_0
abbrev r3_z : Rect S10000x16 := Rect.unit (s := S10000x16) ![0, 0] S10000x16.size inb_S10000x16_S10000x16_0_0
abbrev r3_o : Rect S400x10000 := Rect.unit (s := S400x10000) ![0, 0] S400x10000.size inb_S400x10000_S400x10000_0_0

/-- The output buffer after the body: its one store. -/
def out3_2 (x0 : Vec F S400x16 .f32) (x1 : Vec F S10000x16 .f32) : Vec F S400x10000 .f32 :=
  View.canon [⟨r3_o, k3_pay1 (View.ld x0 r3_b) (View.ld x1 r3_z)⟩]

/-- The store covers the buffer. -/
theorem cover3_2 (p0 : Vec F S400x10000 .f32) (y : S400x10000.Idx) :
    ∃ pc ∈ ([⟨r3_o, p0⟩] : List (View.Piece (Elt F) S400x10000 .f32)), y ∈ pc.1.set :=
  View.cover_of_tiled [⟨r3_o, p0⟩] S400x10000.size (by rfl) y

set_option maxHeartbeats 1000000 in
/-- The body on whole staging buffers, the operands' at `x0`, `x1` and the output's at anything, leaves the operands'
    as they were and the output's at `out3_2 x0 x1`. -/
theorem sound_kernel3 (c : Dev nD) (E : Set ℕ) (i : grid3.Coords) (arg1 : Memref sig .tc .vmem S400x16 .f32) (harg1 : arg1.IsWhole)
    (arg2 : Memref sig .tc .vmem S10000x16 .f32) (harg2 : arg2.IsWhole) (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__pass3_kernel i arg1 harg1 arg2 harg2 arg3 harg3) K := by
  simp only [cc3__pass3_kernel_eq_skeleton]; unfold cc3__pass3_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core `c`: the arrays as the region finds them; after the body each operand's
    buffer at its block and the output's at `out3_2` of the operands' blocks; the invariant is the scoped rest and
    the generator register, untouched; nothing owed; the one array the two operand windows read is held half by each. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => (fullShare : PosShare TreeShare).left
    | ⟨1, _⟩ => (fullShare : PosShare TreeShare).right
    | ⟨2, _⟩ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- The shares, window by window. -/
theorem share3_0 (c : Dev nD) : (dat3 V c).share 0 = (fullShare : PosShare TreeShare).left := rfl
theorem share3_1 (c : Dev nD) : (dat3 V c).share 1 = (fullShare : PosShare TreeShare).right := rfl
theorem share3_2 (c : Dev nD) : (dat3 V c).share 2 = fullShare := rfl

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.K.Fold.lean ====
/-
  The buffer contents at each boundary of @main, as a fold from the launch memory: after the one host operation (the
  concatenation [W_mu | W_logstd]) every buffer but its result is as launched; after each of regions 0, 1, 2 the region's
  output array holds what its write-backs leave and every other buffer what it held at entry; after region 3, whose two
  operand windows read one array and write nothing back, only the result array changes. Each argument array therefore
  reaches the end as launched. The proof data of the four pipelines are taken at these entry contents.
-/
import proofs.«179463_g63213328662976_cont_sun_m_190_11_alg».proof.Proof.Gen.Kernel.Launch
import proofs.«179463_g63213328662976_cont_sun_m_190_11_alg».proof.Proof.Gen.Kernel.Skeleton
import proofs.«179463_g63213328662976_cont_sun_m_190_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«179463_g63213328662976_cont_sun_m_190_11_alg».proof.Proof.K.Body0
import proofs.«179463_g63213328662976_cont_sun_m_190_11_alg».proof.Proof.K.Body1
import proofs.«179463_g63213328662976_cont_sun_m_190_11_alg».proof.Proof.K.Body2
import proofs.«179463_g63213328662976_cont_sun_m_190_11_alg».proof.Proof.K.Body3
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the host operation (region 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- At region 0's exit (region 1's entry). -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- At region 1's exit (region 2's entry). -/
def W3 (c : Dev nD) : Valuation τ sig (Elt F) :=
  Pipeline.withArrays spec1 c (W2 m c) fun w => (dat1 (U2 m) c).arrAt w cfg1.N
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-- At region 2's exit (region 3's entry). -/
def W4 (c : Dev nD) : Valuation τ sig (Elt F) :=
  Pipeline.withArrays spec2 c (W3 m c) fun w => (dat2 (U3 m) c).arrAt w cfg2.N
theorem W4_arr (c : Dev nD) (w : Fin cfg2.W) :
    W4 m c (Proc.devRef .tc (Pipeline.arrRef spec2 w)) = (dat2 (U3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev U4 : (c : Dev nD) → (b : Ref sig .tc) → Buf (Elt F) ((c : Thread nD τ).loc b) := fun c b => W4 m c b
theorem hF2 (c : Dev nD) (w : Fin cfg2.W) : (dat2 (U3 m) c).arrAt w cfg2.N = U4 m c (Pipeline.arrRef spec2 w) :=
  (W4_arr m c w).symm
theorem hrest2 (c : Dev nD) : ∀ b, b ∉ Finset.univ.image (Pipeline.arrRef spec2) → U4 m c b = U3 m c b :=
  fun b hb => W4_of_ne m c b fun w e => hb (Finset.mem_image.mpr ⟨w, Finset.mem_univ _, e⟩)

/-- At region 3's exit (the end of @main): the result array at what the write-backs leave, nothing else changed. -/
def W5 (c : Dev nD) : Valuation τ sig (Elt F) :=
  Function.update (W4 m c) main_v4 ((dat3 (U4 m) c).arrAt 2 cfg3.N)
abbrev U5 : (c : Dev nD) → (b : Ref sig .tc) → Buf (Elt F) ((c : Thread nD τ).loc b) := fun c b => W5 m c b
theorem W5_out (c : Dev nD) : U5 m c main_v4 = (dat3 (U4 m) c).arrAt 2 cfg3.N := by
  show Function.update (W4 m c) main_v4 ((dat3 (U4 m) c).arrAt 2 cfg3.N) main_v4 = _
  exact Function.update_self _ _ _
theorem W5_of_ne (c : Dev nD) (b : Ref sig .tc) (hb : b ≠ main_v4) : U5 m c b = U4 m c b := by
  show Function.update (W4 m c) main_v4 ((dat3 (U4 m) c).arrAt 2 cfg3.N) b = _
  exact Function.update_of_ne (StableHlo.devRef_ne_of_ne hb : (Proc.devRef .tc b : DevRef τ sig) ≠ Proc.devRef .tc main_v4) _ _
theorem hrest3 (c : Dev nD) : ∀ b, b ∉ Finset.univ.image (Pipeline.arrRef spec3) → U5 m c b = U4 m c b :=
  fun b hb => W5_of_ne m c b fun e => hb (Finset.mem_image.mpr ⟨2, Finset.mem_univ _, e.symm⟩)

/-- The host operation writes only its result. -/
theorem W1_of_ne (c : Dev nD) (b : Ref sig .tc) (hb : b ≠ main_v0) : W1 m c (Proc.devRef .tc b) = W0 m c (Proc.devRef .tc b) :=
  StableHlo.after_of_forall_not_mem (b := Proc.devRef .tc b) _ _ (List.forall_iff_forall_mem.mp (by
    simp only [hostOps0, List.Forall, StableHlo.binary_writes, Finset.mem_singleton]
    exact StableHlo.devRef_ne_of_ne hb))

/-- A buffer no region writes and the host operation does not write ends as launched. -/
theorem W5_kept (c : Dev nD) (b : Ref sig .tc) (h0 : b ≠ main_v0) (h1 : b ≠ main_v1) (h2 : b ≠ main_v2) (h3 : b ≠ main_v3) (h4 : b ≠ main_v4)
    (a0 : ∀ w, Pipeline.arrRef spec0 w = b → (cfg0.win w).isOut = false) (a1 : ∀ w, Pipeline.arrRef spec1 w = b → (cfg1.win w).isOut = false)
    (a2 : ∀ w, Pipeline.arrRef spec2 w = b → (cfg2.win w).isOut = false) :
    W5 m c (Proc.devRef .tc b) = m ((c : Thread nD τ).loc b) := by
  have e5 : W5 m c (Proc.devRef .tc b) = W4 m c (Proc.devRef .tc b) := W5_of_ne m c b h4
  have e4 : W4 m c (Proc.devRef .tc b) = W3 m c (Proc.devRef .tc b) := by
    by_cases h : ∃ w, Pipeline.arrRef spec2 w = b
    · obtain ⟨w, rfl⟩ := h
      exact (W4_arr m c w).trans (((dat2 (U3 m) c).arrAt_in w (a2 w rfl) _).trans (A_eq2 (U3 m) c w))
    · exact W4_of_ne m c b fun w e => h ⟨w, e⟩
  have e3 : W3 m c (Proc.devRef .tc b) = W2 m c (Proc.devRef .tc b) := by
    by_cases h : ∃ w, Pipeline.arrRef spec1 w = b
    · obtain ⟨w, rfl⟩ := h
      exact (W3_arr m c w).trans (((dat1 (U2 m) c).arrAt_in w (a1 w rfl) _).trans (A_eq1 (U2 m) c w))
    · exact W3_of_ne m c b fun w e => h ⟨w, e⟩
  have e2 : W2 m c (Proc.devRef .tc b) = W1 m c (Proc.devRef .tc b) := by
    by_cases h : ∃ w, Pipeline.arrRef spec0 w = b
    · obtain ⟨w, rfl⟩ := h
      exact (W2_arr m c w).trans (((dat0 (U1 m) c).arrAt_in w (a0 w rfl) _).trans (A_eq0 (U1 m) c w))
    · exact W2_of_ne m c b fun w e => h ⟨w, e⟩
  exact e5.trans (e4.trans (e3.trans (e2.trans (W1_of_ne m c b h0))))

theorem W5_main_arg0 (c : Dev nD) : W5 m c (Proc.devRef .tc main_arg0) = m ((c : Thread nD τ).loc main_arg0) :=
  W5_kept m c main_arg0 (by decide) (by decide) (by decide) (by decide) (by decide) (by decide) (by decide) (by decide)
theorem W5_main_arg1 (c : Dev nD) : W5 m c (Proc.devRef .tc main_arg1) = m ((c : Thread nD τ).loc main_arg1) :=
  W5_kept m c main_arg1 (by decide) (by decide) (by decide) (by decide) (by decide) (by decide) (by decide) (by decide)
theorem W5_main_arg2 (c : Dev nD) : W5 m c (Proc.devRef .tc main_arg2) = m ((c : Thread nD τ).loc main_arg2) :=
  W5_kept m c main_arg2 (by decide) (by decide) (by decide) (by decide) (by decide) (by decide) (by decide) (by decide)
theorem W5_main_arg3 (c : Dev nD) : W5 m c (Proc.devRef .tc main_arg3) = m ((c : Thread nD τ).loc main_arg3) :=
  W5_kept m c main_arg3 (by decide) (by decide) (by decide) (by decide) (by decide) (by decide) (by decide) (by decide)
theorem W5_main_arg4 (c : Dev nD) : W5 m c (Proc.devRef .tc main_arg4) = m ((c : Thread nD τ).loc main_arg4) :=
  W5_kept m c main_arg4 (by decide) (by decide) (by decide) (by decide) (by decide) (by decide) (by decide) (by decide)
theorem W5_main_arg5 (c : Dev nD) : W5 m c (Proc.devRef .tc main_arg5) = m ((c : Thread nD τ).loc main_arg5) :=
  W5_kept m c main_arg5 (by decide) (by decide) (by decide) (by decide) (by decide) (by decide) (by decide) (by decide)

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
  | ⟨2, _⟩ => fun c => dat2 (U3 m) c
  | ⟨3, _⟩ => fun c => dat3 (U4 m) c

end Cert.Kernel.Frame

end
-- ==== Proof.K.Share3.lean ====
/-
  Region 3 reads ONE array, z, through two windows. The launch's layout lemmas for distinct arrays do not apply, so
  the two steps at the region's boundary are stated here: at ENTRY the full share of z is split into two halves,
  one per window, the output array being held outright; at EXIT the two halves, still at the contents the region
  was entered with (an input window writes nothing back), are joined again.
-/
import proofs.«179463_g63213328662976_cont_sun_m_190_11_alg».proof.Proof.Gen.Kernel.Launch
import proofs.«179463_g63213328662976_cont_sun_m_190_11_alg».proof.Proof.Gen.Kernel.Skeleton
import proofs.«179463_g63213328662976_cont_sun_m_190_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«179463_g63213328662976_cont_sun_m_190_11_alg».proof.Proof.K.Body3
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 3's windows: z and the output. -/
theorem arrImage3 : (Finset.univ.image (Pipeline.arrRef spec3) : Finset (Ref sig .tc)) = {main_v3, main_v4} := by decide

/-- The buffers behind region 3's windows, each whole at the full share at contents `U`, one by one. -/
theorem arrBufs3_eq (c : Dev nD) (U : (b : Ref sig .tc) → Buf (Elt F) ((c : Thread nD τ).loc b)) :
    (Pipeline.arrBufs (Ix := Unit) (Name := ℕ) (U := UR sig nD τ) (Lvl := ℕ) spec3 c U : sProp 𝕄)
      = iprop((((c : Thread nD τ).loc main_v3) ↦{fullShare} U main_v3) ∗ (((c : Thread nD τ).loc main_v4) ↦{fullShare} U main_v4)) := by
  unfold Pipeline.arrBufs
  rw [arrImage3, bigSep_insert (by decide), bigSep_singleton]
  rfl

/-- Region 3's windowed arrays at contents `G`, one by one: z at the left half for the row-block window, at the right
    half for the whole-array window, the output outright. -/
theorem arrays3_eq (c : Dev nD) (G : (w : Fin cfg3.W) → Buf (Elt F) ((cfg3.win w).arr.view.loc (c : Thread nD τ))) :
    ((dat3 V c).arrays G : sProp 𝕄)
      = iprop((((c : Thread nD τ).loc main_v3) ↦{(fullShare : PosShare TreeShare).left} G 0)
          ∗ (((c : Thread nD τ).loc main_v3) ↦{(fullShare : PosShare TreeShare).right} G 1)
          ∗ (((c : Thread nD τ).loc main_v4) ↦{fullShare} G 2)) := by
  unfold Dat.arrays
  rw [bigSep_W3, (arr_whole3 0).set_eq_univ, (arr_whole3 2).set_eq_univ]
  rfl

/-- ENTRY: a core's unscoped buffers at contents `V c` are region 3's arrays at their entry contents and the rest. -/
theorem entry3 (c : Dev nD) :
    (unscopedBufs c (V c) : sProp 𝕄) ⊢ iprop((dat3 V c).arrays ((dat3 V c).arrAt · 0) ∗ Pipeline.unscopedRest spec3 c (V c)) := by
  rw [Pipeline.unscopedBufs_split₀ cfgs 3 winFacts₀3.arr_unscoped c (V c)]
  show iprop(Pipeline.arrBufs spec3 c (V c) ∗ Pipeline.unscopedRest spec3 c (V c)) ⊢ _
  rw [arrBufs3_eq, arrays3_eq]
  iintro ⟨⟨H3, H4⟩, Hr⟩
  isplitr [Hr]
  swap; · iexact Hr
  ihave H := (pointsTo_share (PosShare.mem_left_op_right fullShare)).1 $$ H3
  icases H with ⟨Hl, Hrr⟩
  isplitl [Hl]; · iexact Hl
  isplitl [Hrr]; · iexact Hrr
  iexact H4

/-- EXIT: region 3's arrays at what the pipeline leaves — z as entered in both halves, the output at its written-back
    contents — and the unscoped rest as entered are the core's unscoped buffers at any contents `V'` that have the
    output there and agree with the entry contents elsewhere. -/
theorem exit3 (c : Dev nD) (V' : (b : Ref sig .tc) → Buf (Elt F) ((c : Thread nD τ).loc b))
    (h4 : V' main_v4 = (dat3 V c).arrAt 2 cfg3.N) (h3 : V' main_v3 = V c main_v3)
    (hrest : ∀ b, b ∉ Finset.univ.image (Pipeline.arrRef spec3) → V' b = V c b) :
    iprop((dat3 V c).arrays ((dat3 V c).arrAt · cfg3.N) ∗ Pipeline.unscopedRest spec3 c (V c)) ⊢ (unscopedBufs c V' : sProp 𝕄) := by
  have e0 : ((dat3 V c).arrAt 0 cfg3.N : Buf (Elt F) ((c : Thread nD τ).loc main_v3)) = V' main_v3 :=
    (((dat3 V c).arrAt_in 0 rfl _).trans (A_eq3 V c 0)).trans h3.symm
  have e1 : ((dat3 V c).arrAt 1 cfg3.N : Buf (Elt F) ((c : Thread nD τ).loc main_v3)) = V' main_v3 :=
    (((dat3 V c).arrAt_in 1 rfl _).trans (A_eq3 V c 1)).trans h3.symm
  have hrest' : (Pipeline.unscopedRest spec3 c (V c) : sProp 𝕄) = Pipeline.unscopedRest spec3 c V' := by
    unfold Pipeline.unscopedRest
    exact bigSep_congr fun b hb => by rw [hrest b (Finset.mem_sdiff.mp hb).2]
  rw [Pipeline.unscopedBufs_split₀ cfgs 3 winFacts₀3.arr_unscoped c V']
  show _ ⊢ iprop(Pipeline.arrBufs spec3 c V' ∗ Pipeline.unscopedRest spec3 c V')
  rw [arrBufs3_eq, arrays3_eq, hrest']
  show iprop(((((c : Thread nD τ).loc main_v3) ↦{(fullShare : PosShare TreeShare).left} ((dat3 V c).arrAt 0 cfg3.N : Buf (Elt F) ((c : Thread nD τ).loc main_v3)))
          ∗ (((c : Thread nD τ).loc main_v3) ↦{(fullShare : PosShare TreeShare).right} ((dat3 V c).arrAt 1 cfg3.N : Buf (Elt F) ((c : Thread nD τ).loc main_v3)))
          ∗ (((c : Thread nD τ).loc main_v4) ↦{fullShare} ((dat3 V c).arrAt 2 cfg3.N : Buf (Elt F) ((c : Thread nD τ).loc main_v4))))
        ∗ Pipeline.unscopedRest spec3 c V') ⊢ _
  rw [e0, e1, ← h4]
  iintro ⟨⟨Hl, Hr, H4⟩, Hrest⟩
  isplitr [Hrest]
  swap; · iexact Hrest
  isplitr [H4]
  swap; · iexact H4
  iapply (pointsTo_share (PosShare.mem_left_op_right fullShare)).2
  isplitl [Hl]; · iexact Hl
  iexact Hr

end Cert.Kernel.Frame

end
-- ==== Proof.K.Run.lean ====
/-
  The run of @main: its five items — the host concatenation and the four kernel regions — as segments over the thread
  state "every unscoped buffer at the boundary's contents, the generator register at some state, nothing owed", and the
  launch over them: every weakly fair execution terminates, nothing faults, the result array ends at what region 3's
  write-backs leave and each argument array as launched. Regions 0, 1, 2 have distinct arrays and enter and leave by the
  library's split of the unscoped buffers; region 3 reads one array through two windows and enters and leaves by the
  half-share split proved for it.
-/
import proofs.«179463_g63213328662976_cont_sun_m_190_11_alg».proof.Proof.Gen.Kernel.Launch
import proofs.«179463_g63213328662976_cont_sun_m_190_11_alg».proof.Proof.Gen.Kernel.Skeleton
import proofs.«179463_g63213328662976_cont_sun_m_190_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«179463_g63213328662976_cont_sun_m_190_11_alg».proof.Proof.K.Fold
import proofs.«179463_g63213328662976_cont_sun_m_190_11_alg».proof.Proof.K.Share3
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-- The host operation allocates no buffer. -/
theorem hostOps0_fresh : (hostOps0 : List (HloOp τ sig (Elt F))).Forall fun op => op.fresh = ∅ := by
  simp only [List.Forall]; repeat' constructor

/-- The host stretch as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W5 m c) ∗ ∃ r, prngReg c r)

set_option backward.isDefEq.respectTransparency.types false in
/-- Region 0 over the thread state: entered from every unscoped buffer at `W1`, left at `W2`. Its arrays are split out of
    the unscoped buffers and put back at the exit contents; the generator register goes into the invariant and comes
    out; nothing is owed; the kernel names no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split out of
    the unscoped buffers and put back at the exit contents; the generator register goes into the invariant and comes
    out; nothing is owed; the kernel names no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are split out of
    the unscoped buffers and put back at the exit contents; the generator register goes into the invariant and comes
    out; nothing is owed; the kernel names no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U3 m c) (U4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W4`, left at `W5`. The array its two operand
    windows read is split into halves at entry and joined at exit; the rest as for the other regions. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (U4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U4 m c)
  hentry c := by
    rw [Pipeline.ownSems0_none]
    have hsplit := entry3 (U4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N)
          ∗ Pipeline.unscopedRest (Ix := Unit) (Name := ℕ) (U := UR sig nD τ) (Lvl := ℕ) spec3 c (U4 m c))
        ⊢ (unscopedBufs c (U5 m c) : sProp 𝕄) :=
      exit3 (U4 m) c (U5 m c) (W5_out m c) (W5_of_ne m c main_v3 (by decide)) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's five segments in order. -/
abbrev segs : List (Pipeline.Seg (pcfgs (F := F)) adm (pdats m) () defs₀ 𝒱₀ L lv) :=
  [ .host (hseg0 m), .region (reg0 m), .region (reg1 m), .region (reg2 m), .region (reg3 m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has the result array at what region 3's write-backs leave and the argument arrays as launched. -/
theorem run : θ_run defs (onTc (τ := τ) (main (F := F))) ⟨m, fun _ => 0, ρ⟩ (fun r => ∀ c : Dev nD,
      r.2.mem ((c.tc : Thread nD τ).loc main_v4) = (dat3 (U4 m) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨(h c _ (mem_uc main_v4 (by decide))).trans (W5_out m c),
       (h c _ (mem_uc main_arg0 (by decide))).trans (W5_main_arg0 m c),
       (h c _ (mem_uc main_arg1 (by decide))).trans (W5_main_arg1 m c),
       (h c _ (mem_uc main_arg2 (by decide))).trans (W5_main_arg2 m c),
       (h c _ (mem_uc main_arg3 (by decide))).trans (W5_main_arg3 m c),
       (h c _ (mem_uc main_arg4 (by decide))).trans (W5_main_arg4 m c),
       (h c _ (mem_uc main_arg5 (by decide))).trans (W5_main_arg5 m c)⟩)

end Cert.Kernel.Frame

end
-- ==== Proof.KI.Body0.lean ====
/-
  Region 0 of @main (the un-gridded call that forms t0 = x · W0), at the contents `V` the region is entered with:
  the two operands are staged whole, the body loads both, multiplies them on the matrix unit into a zero
  accumulator and stores the product over the whole output buffer. What the output buffer holds after the body is
  therefore one piece covering it (`out0_2`); the proof data name that piece at the single point, and the body
  obligation is the body's run on buffers holding the operands' blocks.
-/
import proofs.«179463_g63213328662976_cont_sun_m_190_11_alg».proof.Proof.Gen.KernelIdeal.Launch
import proofs.«179463_g63213328662976_cont_sun_m_190_11_alg».proof.Proof.Gen.KernelIdeal.Skeleton
import proofs.«179463_g63213328662976_cont_sun_m_190_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_x : Rect S10000x128 := Rect.unit (s := S10000x128) ![0, 0] S10000x128.size inb_S10000x128_S10000x128_0_0
abbrev r0_w : Rect S128x32 := Rect.unit (s := S128x32) ![0, 0] S128x32.size inb_S128x32_S128x32_0_0
abbrev r0_o : Rect S10000x32 := Rect.unit (s := S10000x32) ![0, 0] S10000x32.size inb_S10000x32_S10000x32_0_0

/-- The output buffer after the body: its one store, of the product of the two loaded operands. -/
def out0_2 (x0 : Vec F S10000x128 .f32) (x1 : Vec F S128x32 .f32) : Vec F S10000x32 .f32 :=
  View.canon [⟨r0_o, k0_pay1 (View.ld x0 r0_x) (View.ld x1 r0_w)⟩]

/-- The store covers the buffer. -/
theorem cover0_2 (p0 : Vec F S10000x32 .f32) (y : S10000x32.Idx) :
    ∃ pc ∈ ([⟨r0_o, p0⟩] : List (View.Piece (Elt F) S10000x32 .f32)), y ∈ pc.1.set :=
  View.cover_of_tiled [⟨r0_o, p0⟩] S10000x32.size (by rfl) y

set_option maxHeartbeats 1000000 in
/-- The body on whole staging buffers, the operands' at `x0`, `x1` and the output's at anything, leaves the operands'
    as they were and the output's at `out0_2 x0 x1`. -/
theorem sound_kernel0 (c : Dev nD) (E : Set ℕ) (arg0 : Memref sig .tc .vmem S10000x128 .f32) (harg0 : arg0.IsWhole)
    (arg1 : Memref sig .tc .vmem S128x32 .f32) (harg1 : arg1.IsWhole) (arg2 : Memref sig .tc .vmem S10000x32 .f32) (harg2 : arg2.IsWhole)
    (x0 : Vec F S10000x128 .f32) (x1 : Vec F S128x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__t0_kernel arg0 harg0 arg1 harg1 arg2 harg2) K := by
  simp only [cc0__t0_kernel_eq_skeleton]; unfold cc0__t0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body each operand's
    buffer at its block and the output's at `out0_2` of the operands' blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Body1.lean ====
/-
  Region 1 of @main (25 grid points; point t computes rows 400·t … 400·t + 399 of c = max (adj · t0) 0 · [W_mu | W_logstd]),
  at the contents `V` the region is entered with. Per point the body loads the 400-row block of adj, the whole of t0 and
  the whole 32 × 32 weight matrix, and stores one 400 × 32 piece covering the output block. The two whole operands are
  fetched once and found again at every later point: their block index never moves.
-/
import proofs.«179463_g63213328662976_cont_sun_m_190_11_alg».proof.Proof.Gen.KernelIdeal.Launch
import proofs.«179463_g63213328662976_cont_sun_m_190_11_alg».proof.Proof.Gen.KernelIdeal.Skeleton
import proofs.«179463_g63213328662976_cont_sun_m_190_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_a : Rect S400x10000 := Rect.unit (s := S400x10000) ![0, 0] S400x10000.size inb_S400x10000_S400x10000_0_0
abbrev r1_t : Rect S10000x32 := Rect.unit (s := S10000x32) ![0, 0] S10000x32.size inb_S10000x32_S10000x32_0_0
abbrev r1_w : Rect S32x32 := Rect.unit (s := S32x32) ![0, 0] S32x32.size inb_S32x32_S32x32_0_0
abbrev r1_o : Rect S400x32 := Rect.unit (s := S400x32) ![0, 0] S400x32.size inb_S400x32_S400x32_0_0

/-- The output buffer after the body: its one store. -/
def out1_3 (x0 : Vec F S400x10000 .f32) (x1 : Vec F S10000x32 .f32) (x2 : Vec F S32x32 .f32) : Vec F S400x32 .f32 :=
  View.canon [⟨r1_o, k1_pay1 (View.ld x0 r1_a) (View.ld x1 r1_t) (View.ld x2 r1_w)⟩]

/-- The store covers the buffer. -/
theorem cover1_3 (p0 : Vec F S400x32 .f32) (y : S400x32.Idx) :
    ∃ pc ∈ ([⟨r1_o, p0⟩] : List (View.Piece (Elt F) S400x32 .f32)), y ∈ pc.1.set :=
  View.cover_of_tiled [⟨r1_o, p0⟩] S400x32.size (by rfl) y

set_option maxHeartbeats 1000000 in
/-- The body on whole staging buffers, the operands' at `x0`, `x1`, `x2` and the output's at anything, leaves the
    operands' as they were and the output's at `out1_3 x0 x1 x2`. -/
theorem sound_kernel1 (c : Dev nD) (E : Set ℕ) (i : grid1.Coords) (arg1 : Memref sig .tc .vmem S400x10000 .f32) (harg1 : arg1.IsWhole)
    (arg2 : Memref sig .tc .vmem S10000x32 .f32) (harg2 : arg2.IsWhole) (arg3 : Memref sig .tc .vmem S32x32 .f32) (harg3 : arg3.IsWhole)
    (arg4 : Memref sig .tc .vmem S400x32 .f32) (harg4 : arg4.IsWhole)
    (x0 : Vec F S400x10000 .f32) (x1 : Vec F S10000x32 .f32) (x2 : Vec F S32x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__pass1_kernel i arg1 harg1 arg2 harg2 arg3 harg3 arg4 harg4) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body each operand's
    buffer at its block and the output's at `out1_3` of the operands' blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.Body2.lean ====
/-
  Region 2 of @main (25 grid points; point t computes rows 400·t … 400·t + 399 of z = noise ⊙ exp (adj · c)[:, 16:] + (adj · c)[:, :16]),
  at the contents `V` the region is entered with. Per point the body loads the 400-row block of adj, the whole of c and the
  400-row block of the noise, and stores one 400 × 16 piece covering the output block. The whole operand c is fetched once
  and found again at every later point: its block index never moves.
-/
import proofs.«179463_g63213328662976_cont_sun_m_190_11_alg».proof.Proof.Gen.KernelIdeal.Launch
import proofs.«179463_g63213328662976_cont_sun_m_190_11_alg».proof.Proof.Gen.KernelIdeal.Skeleton
import proofs.«179463_g63213328662976_cont_sun_m_190_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_a : Rect S400x10000 := Rect.unit (s := S400x10000) ![0, 0] S400x10000.size inb_S400x10000_S400x10000_0_0
abbrev r2_c : Rect S10000x32 := Rect.unit (s := S10000x32) ![0, 0] S10000x32.size inb_S10000x32_S10000x32_0_0
abbrev r2_n : Rect S400x16 := Rect.unit (s := S400x16) ![0, 0] S400x16.size inb_S400x16_S400x16_0_0

/-- The output buffer after the body: its one store. -/
def out2_3 (x0 : Vec F S400x10000 .f32) (x1 : Vec F S10000x32 .f32) (x2 : Vec F S400x16 .f32) : Vec F S400x16 .f32 :=
  View.canon [⟨r2_n, k2_pay1 (View.ld x0 r2_a) (View.ld x1 r2_c) (View.ld x2 r2_n)⟩]

/-- The store covers the buffer. -/
theorem cover2_3 (p0 : Vec F S400x16 .f32) (y : S400x16.Idx) :
    ∃ pc ∈ ([⟨r2_n, p0⟩] : List (View.Piece (Elt F) S400x16 .f32)), y ∈ pc.1.set :=
  View.cover_of_tiled [⟨r2_n, p0⟩] S400x16.size (by rfl) y

set_option maxHeartbeats 1000000 in
/-- The body on whole staging buffers, the operands' at `x0`, `x1`, `x2` and the output's at anything, leaves the
    operands' as they were and the output's at `out2_3 x0 x1 x2`. -/
theorem sound_kernel2 (c : Dev nD) (E : Set ℕ) (i : grid2.Coords) (arg1 : Memref sig .tc .vmem S400x10000 .f32) (harg1 : arg1.IsWhole)
    (arg2 : Memref sig .tc .vmem S10000x32 .f32) (harg2 : arg2.IsWhole) (arg3 : Memref sig .tc .vmem S400x16 .f32) (harg3 : arg3.IsWhole)
    (arg4 : Memref sig .tc .vmem S400x16 .f32) (harg4 : arg4.IsWhole)
    (x0 : Vec F S400x10000 .f32) (x1 : Vec F S10000x32 .f32) (x2 : Vec F S400x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__pass2_kernel i arg1 harg1 arg2 harg2 arg3 harg3 arg4 harg4) K := by
  simp only [cc2__pass2_kernel_eq_skeleton]; unfold cc2__pass2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body each operand's
    buffer at its block and the output's at `out2_3` of the operands' blocks; the invariant is the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KI.Body3.lean ====
/-
  Region 3 of @main (25 grid points; point t computes rows 400·t … 400·t + 399 of logistic (z · zᵀ)), at the contents `V` the
  region is entered with. Both operands are windows on ONE array, z: the 400-row block of it and the whole of it. Per point
  the body loads both, contracts their column axes on the matrix unit and stores one 400 × 10000 piece covering the output
  block. The array being read through two windows, each window holds half of its share: the proof data say so (`q`).
-/
import proofs.«179463_g63213328662976_cont_sun_m_190_11_alg».proof.Proof.Gen.KernelIdeal.Launch
import proofs.«179463_g63213328662976_cont_sun_m_190_11_alg».proof.Proof.Gen.KernelIdeal.Skeleton
import proofs.«179463_g63213328662976_cont_sun_m_190_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_b : Rect S400x16 := Rect.unit (s := S400x16) ![0, 0] S400x16.size inb_S400x16_S400x16_0_0
abbrev r3_z : Rect S10000x16 := Rect.unit (s := S10000x16) ![0, 0] S10000x16.size inb_S10000x16_S10000x16_0_0
abbrev r3_o : Rect S400x10000 := Rect.unit (s := S400x10000) ![0, 0] S400x10000.size inb_S400x10000_S400x10000_0_0

/-- The output buffer after the body: its one store. -/
def out3_2 (x0 : Vec F S400x16 .f32) (x1 : Vec F S10000x16 .f32) : Vec F S400x10000 .f32 :=
  View.canon [⟨r3_o, k3_pay1 (View.ld x0 r3_b) (View.ld x1 r3_z)⟩]

/-- The store covers the buffer. -/
theorem cover3_2 (p0 : Vec F S400x10000 .f32) (y : S400x10000.Idx) :
    ∃ pc ∈ ([⟨r3_o, p0⟩] : List (View.Piece (Elt F) S400x10000 .f32)), y ∈ pc.1.set :=
  View.cover_of_tiled [⟨r3_o, p0⟩] S400x10000.size (by rfl) y

set_option maxHeartbeats 1000000 in
/-- The body on whole staging buffers, the operands' at `x0`, `x1` and the output's at anything, leaves the operands'
    as they were and the output's at `out3_2 x0 x1`. -/
theorem sound_kernel3 (c : Dev nD) (E : Set ℕ) (i : grid3.Coords) (arg1 : Memref sig .tc .vmem S400x16 .f32) (harg1 : arg1.IsWhole)
    (arg2 : Memref sig .tc .vmem S10000x16 .f32) (harg2 : arg2.IsWhole) (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__pass3_kernel i arg1 harg1 arg2 harg2 arg3 harg3) K := by
  simp only [cc3__pass3_kernel_eq_skeleton]; unfold cc3__pass3_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core `c`: the arrays as the region finds them; after the body each operand's
    buffer at its block and the output's at `out3_2` of the operands' blocks; the invariant is the scoped rest and
    the generator register, untouched; nothing owed; the one array the two operand windows read is held half by each. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => (fullShare : PosShare TreeShare).left
    | ⟨1, _⟩ => (fullShare : PosShare TreeShare).right
    | ⟨2, _⟩ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- The shares, window by window. -/
theorem share3_0 (c : Dev nD) : (dat3 V c).share 0 = (fullShare : PosShare TreeShare).left := rfl
theorem share3_1 (c : Dev nD) : (dat3 V c).share 1 = (fullShare : PosShare TreeShare).right := rfl
theorem share3_2 (c : Dev nD) : (dat3 V c).share 2 = fullShare := rfl

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KI.Fold.lean ====
/-
  The buffer contents at each boundary of @main, as a fold from the launch memory: after the one host operation (the
  concatenation [W_mu | W_logstd]) every buffer but its result is as launched; after each of regions 0, 1, 2 the region's
  output array holds what its write-backs leave and every other buffer what it held at entry; after region 3, whose two
  operand windows read one array and write nothing back, only the result array changes. Each argument array therefore
  reaches the end as launched. The proof data of the four pipelines are taken at these entry contents.
-/
import proofs.«179463_g63213328662976_cont_sun_m_190_11_alg».proof.Proof.Gen.KernelIdeal.Launch
import proofs.«179463_g63213328662976_cont_sun_m_190_11_alg».proof.Proof.Gen.KernelIdeal.Skeleton
import proofs.«179463_g63213328662976_cont_sun_m_190_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«179463_g63213328662976_cont_sun_m_190_11_alg».proof.Proof.KI.Body0
import proofs.«179463_g63213328662976_cont_sun_m_190_11_alg».proof.Proof.KI.Body1
import proofs.«179463_g63213328662976_cont_sun_m_190_11_alg».proof.Proof.KI.Body2
import proofs.«179463_g63213328662976_cont_sun_m_190_11_alg».proof.Proof.KI.Body3
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the host operation (region 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- At region 0's exit (region 1's entry). -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- At region 1's exit (region 2's entry). -/
def W3 (c : Dev nD) : Valuation τ sig (Elt F) :=
  Pipeline.withArrays spec1 c (W2 m c) fun w => (dat1 (U2 m) c).arrAt w cfg1.N
theorem W3_arr (c : Dev nD) (w : Fin cfg1.W) :
    W3 m c (Proc.devRef .tc (Pipeline.arrRef spec1 w)) = (dat1 (U2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev U3 : (c : Dev nD) → (b : Ref sig .tc) → Buf (Elt F) ((c : Thread nD τ).loc b) := fun c b => W3 m c b
theorem hF1 (c : Dev nD) (w : Fin cfg1.W) : (dat1 (U2 m) c).arrAt w cfg1.N = U3 m c (Pipeline.arrRef spec1 w) :=
  (W3_arr m c w).symm
theorem hrest1 (c : Dev nD) : ∀ b, b ∉ Finset.univ.image (Pipeline.arrRef spec1) → U3 m c b = U2 m c b :=
  fun b hb => W3_of_ne m c b fun w e => hb (Finset.mem_image.mpr ⟨w, Finset.mem_univ _, e⟩)

/-- At region 2's exit (region 3's entry). -/
def W4 (c : Dev nD) : Valuation τ sig (Elt F) :=
  Pipeline.withArrays spec2 c (W3 m c) fun w => (dat2 (U3 m) c).arrAt w cfg2.N
theorem W4_arr (c : Dev nD) (w : Fin cfg2.W) :
    W4 m c (Proc.devRef .tc (Pipeline.arrRef spec2 w)) = (dat2 (U3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev U4 : (c : Dev nD) → (b : Ref sig .tc) → Buf (Elt F) ((c : Thread nD τ).loc b) := fun c b => W4 m c b
theorem hF2 (c : Dev nD) (w : Fin cfg2.W) : (dat2 (U3 m) c).arrAt w cfg2.N = U4 m c (Pipeline.arrRef spec2 w) :=
  (W4_arr m c w).symm
theorem hrest2 (c : Dev nD) : ∀ b, b ∉ Finset.univ.image (Pipeline.arrRef spec2) → U4 m c b = U3 m c b :=
  fun b hb => W4_of_ne m c b fun w e => hb (Finset.mem_image.mpr ⟨w, Finset.mem_univ _, e⟩)

/-- At region 3's exit (the end of @main): the result array at what the write-backs leave, nothing else changed. -/
def W5 (c : Dev nD) : Valuation τ sig (Elt F) :=
  Function.update (W4 m c) main_v4 ((dat3 (U4 m) c).arrAt 2 cfg3.N)
abbrev U5 : (c : Dev nD) → (b : Ref sig .tc) → Buf (Elt F) ((c : Thread nD τ).loc b) := fun c b => W5 m c b
theorem W5_out (c : Dev nD) : U5 m c main_v4 = (dat3 (U4 m) c).arrAt 2 cfg3.N := by
  show Function.update (W4 m c) main_v4 ((dat3 (U4 m) c).arrAt 2 cfg3.N) main_v4 = _
  exact Function.update_self _ _ _
theorem W5_of_ne (c : Dev nD) (b : Ref sig .tc) (hb : b ≠ main_v4) : U5 m c b = U4 m c b := by
  show Function.update (W4 m c) main_v4 ((dat3 (U4 m) c).arrAt 2 cfg3.N) b = _
  exact Function.update_of_ne (StableHlo.devRef_ne_of_ne hb : (Proc.devRef .tc b : DevRef τ sig) ≠ Proc.devRef .tc main_v4) _ _
theorem hrest3 (c : Dev nD) : ∀ b, b ∉ Finset.univ.image (Pipeline.arrRef spec3) → U5 m c b = U4 m c b :=
  fun b hb => W5_of_ne m c b fun e => hb (Finset.mem_image.mpr ⟨2, Finset.mem_univ _, e.symm⟩)

/-- The host operation writes only its result. -/
theorem W1_of_ne (c : Dev nD) (b : Ref sig .tc) (hb : b ≠ main_v0) : W1 m c (Proc.devRef .tc b) = W0 m c (Proc.devRef .tc b) :=
  StableHlo.after_of_forall_not_mem (b := Proc.devRef .tc b) _ _ (List.forall_iff_forall_mem.mp (by
    simp only [hostOps0, List.Forall, StableHlo.binary_writes, Finset.mem_singleton]
    exact StableHlo.devRef_ne_of_ne hb))

/-- A buffer no region writes and the host operation does not write ends as launched. -/
theorem W5_kept (c : Dev nD) (b : Ref sig .tc) (h0 : b ≠ main_v0) (h1 : b ≠ main_v1) (h2 : b ≠ main_v2) (h3 : b ≠ main_v3) (h4 : b ≠ main_v4)
    (a0 : ∀ w, Pipeline.arrRef spec0 w = b → (cfg0.win w).isOut = false) (a1 : ∀ w, Pipeline.arrRef spec1 w = b → (cfg1.win w).isOut = false)
    (a2 : ∀ w, Pipeline.arrRef spec2 w = b → (cfg2.win w).isOut = false) :
    W5 m c (Proc.devRef .tc b) = m ((c : Thread nD τ).loc b) := by
  have e5 : W5 m c (Proc.devRef .tc b) = W4 m c (Proc.devRef .tc b) := W5_of_ne m c b h4
  have e4 : W4 m c (Proc.devRef .tc b) = W3 m c (Proc.devRef .tc b) := by
    by_cases h : ∃ w, Pipeline.arrRef spec2 w = b
    · obtain ⟨w, rfl⟩ := h
      exact (W4_arr m c w).trans (((dat2 (U3 m) c).arrAt_in w (a2 w rfl) _).trans (A_eq2 (U3 m) c w))
    · exact W4_of_ne m c b fun w e => h ⟨w, e⟩
  have e3 : W3 m c (Proc.devRef .tc b) = W2 m c (Proc.devRef .tc b) := by
    by_cases h : ∃ w, Pipeline.arrRef spec1 w = b
    · obtain ⟨w, rfl⟩ := h
      exact (W3_arr m c w).trans (((dat1 (U2 m) c).arrAt_in w (a1 w rfl) _).trans (A_eq1 (U2 m) c w))
    · exact W3_of_ne m c b fun w e => h ⟨w, e⟩
  have e2 : W2 m c (Proc.devRef .tc b) = W1 m c (Proc.devRef .tc b) := by
    by_cases h : ∃ w, Pipeline.arrRef spec0 w = b
    · obtain ⟨w, rfl⟩ := h
      exact (W2_arr m c w).trans (((dat0 (U1 m) c).arrAt_in w (a0 w rfl) _).trans (A_eq0 (U1 m) c w))
    · exact W2_of_ne m c b fun w e => h ⟨w, e⟩
  exact e5.trans (e4.trans (e3.trans (e2.trans (W1_of_ne m c b h0))))

theorem W5_main_arg0 (c : Dev nD) : W5 m c (Proc.devRef .tc main_arg0) = m ((c : Thread nD τ).loc main_arg0) :=
  W5_kept m c main_arg0 (by decide) (by decide) (by decide) (by decide) (by decide) (by decide) (by decide) (by decide)
theorem W5_main_arg1 (c : Dev nD) : W5 m c (Proc.devRef .tc main_arg1) = m ((c : Thread nD τ).loc main_arg1) :=
  W5_kept m c main_arg1 (by decide) (by decide) (by decide) (by decide) (by decide) (by decide) (by decide) (by decide)
theorem W5_main_arg2 (c : Dev nD) : W5 m c (Proc.devRef .tc main_arg2) = m ((c : Thread nD τ).loc main_arg2) :=
  W5_kept m c main_arg2 (by decide) (by decide) (by decide) (by decide) (by decide) (by decide) (by decide) (by decide)
theorem W5_main_arg3 (c : Dev nD) : W5 m c (Proc.devRef .tc main_arg3) = m ((c : Thread nD τ).loc main_arg3) :=
  W5_kept m c main_arg3 (by decide) (by decide) (by decide) (by decide) (by decide) (by decide) (by decide) (by decide)
theorem W5_main_arg4 (c : Dev nD) : W5 m c (Proc.devRef .tc main_arg4) = m ((c : Thread nD τ).loc main_arg4) :=
  W5_kept m c main_arg4 (by decide) (by decide) (by decide) (by decide) (by decide) (by decide) (by decide) (by decide)
theorem W5_main_arg5 (c : Dev nD) : W5 m c (Proc.devRef .tc main_arg5) = m ((c : Thread nD τ).loc main_arg5) :=
  W5_kept m c main_arg5 (by decide) (by decide) (by decide) (by decide) (by decide) (by decide) (by decide) (by decide)

/-- The prefetched tables' admissible contents: no pipeline has a table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U2 m) c
  | ⟨2, _⟩ => fun c => dat2 (U3 m) c
  | ⟨3, _⟩ => fun c => dat3 (U4 m) c

end Cert.KernelIdeal.Frame

end
-- ==== Proof.KI.Share3.lean ====
/-
  Region 3 reads ONE array, z, through two windows. The launch's layout lemmas for distinct arrays do not apply, so
  the two steps at the region's boundary are stated here: at ENTRY the full share of z is split into two halves,
  one per window, the output array being held outright; at EXIT the two halves, still at the contents the region
  was entered with (an input window writes nothing back), are joined again.
-/
import proofs.«179463_g63213328662976_cont_sun_m_190_11_alg».proof.Proof.Gen.KernelIdeal.Launch
import proofs.«179463_g63213328662976_cont_sun_m_190_11_alg».proof.Proof.Gen.KernelIdeal.Skeleton
import proofs.«179463_g63213328662976_cont_sun_m_190_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«179463_g63213328662976_cont_sun_m_190_11_alg».proof.Proof.KI.Body3
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 3's windows: z and the output. -/
theorem arrImage3 : (Finset.univ.image (Pipeline.arrRef spec3) : Finset (Ref sig .tc)) = {main_v3, main_v4} := by decide

/-- The buffers behind region 3's windows, each whole at the full share at contents `U`, one by one. -/
theorem arrBufs3_eq (c : Dev nD) (U : (b : Ref sig .tc) → Buf (Elt F) ((c : Thread nD τ).loc b)) :
    (Pipeline.arrBufs (Ix := Unit) (Name := ℕ) (U := UR sig nD τ) (Lvl := ℕ) spec3 c U : sProp 𝕄)
      = iprop((((c : Thread nD τ).loc main_v3) ↦{fullShare} U main_v3) ∗ (((c : Thread nD τ).loc main_v4) ↦{fullShare} U main_v4)) := by
  unfold Pipeline.arrBufs
  rw [arrImage3, bigSep_insert (by decide), bigSep_singleton]
  rfl

/-- Region 3's windowed arrays at contents `G`, one by one: z at the left half for the row-block window, at the right
    half for the whole-array window, the output outright. -/
theorem arrays3_eq (c : Dev nD) (G : (w : Fin cfg3.W) → Buf (Elt F) ((cfg3.win w).arr.view.loc (c : Thread nD τ))) :
    ((dat3 V c).arrays G : sProp 𝕄)
      = iprop((((c : Thread nD τ).loc main_v3) ↦{(fullShare : PosShare TreeShare).left} G 0)
          ∗ (((c : Thread nD τ).loc main_v3) ↦{(fullShare : PosShare TreeShare).right} G 1)
          ∗ (((c : Thread nD τ).loc main_v4) ↦{fullShare} G 2)) := by
  unfold Dat.arrays
  rw [bigSep_W3, (arr_whole3 0).set_eq_univ, (arr_whole3 2).set_eq_univ]
  rfl

/-- ENTRY: a core's unscoped buffers at contents `V c` are region 3's arrays at their entry contents and the rest. -/
theorem entry3 (c : Dev nD) :
    (unscopedBufs c (V c) : sProp 𝕄) ⊢ iprop((dat3 V c).arrays ((dat3 V c).arrAt · 0) ∗ Pipeline.unscopedRest spec3 c (V c)) := by
  rw [Pipeline.unscopedBufs_split₀ cfgs 3 winFacts₀3.arr_unscoped c (V c)]
  show iprop(Pipeline.arrBufs spec3 c (V c) ∗ Pipeline.unscopedRest spec3 c (V c)) ⊢ _
  rw [arrBufs3_eq, arrays3_eq]
  iintro ⟨⟨H3, H4⟩, Hr⟩
  isplitr [Hr]
  swap; · iexact Hr
  ihave H := (pointsTo_share (PosShare.mem_left_op_right fullShare)).1 $$ H3
  icases H with ⟨Hl, Hrr⟩
  isplitl [Hl]; · iexact Hl
  isplitl [Hrr]; · iexact Hrr
  iexact H4

/-- EXIT: region 3's arrays at what the pipeline leaves — z as entered in both halves, the output at its written-back
    contents — and the unscoped rest as entered are the core's unscoped buffers at any contents `V'` that have the
    output there and agree with the entry contents elsewhere. -/
theorem exit3 (c : Dev nD) (V' : (b : Ref sig .tc) → Buf (Elt F) ((c : Thread nD τ).loc b))
    (h4 : V' main_v4 = (dat3 V c).arrAt 2 cfg3.N) (h3 : V' main_v3 = V c main_v3)
    (hrest : ∀ b, b ∉ Finset.univ.image (Pipeline.arrRef spec3) → V' b = V c b) :
    iprop((dat3 V c).arrays ((dat3 V c).arrAt · cfg3.N) ∗ Pipeline.unscopedRest spec3 c (V c)) ⊢ (unscopedBufs c V' : sProp 𝕄) := by
  have e0 : ((dat3 V c).arrAt 0 cfg3.N : Buf (Elt F) ((c : Thread nD τ).loc main_v3)) = V' main_v3 :=
    (((dat3 V c).arrAt_in 0 rfl _).trans (A_eq3 V c 0)).trans h3.symm
  have e1 : ((dat3 V c).arrAt 1 cfg3.N : Buf (Elt F) ((c : Thread nD τ).loc main_v3)) = V' main_v3 :=
    (((dat3 V c).arrAt_in 1 rfl _).trans (A_eq3 V c 1)).trans h3.symm
  have hrest' : (Pipeline.unscopedRest spec3 c (V c) : sProp 𝕄) = Pipeline.unscopedRest spec3 c V' := by
    unfold Pipeline.unscopedRest
    exact bigSep_congr fun b hb => by rw [hrest b (Finset.mem_sdiff.mp hb).2]
  rw [Pipeline.unscopedBufs_split₀ cfgs 3 winFacts₀3.arr_unscoped c V']
  show _ ⊢ iprop(Pipeline.arrBufs spec3 c V' ∗ Pipeline.unscopedRest spec3 c V')
  rw [arrBufs3_eq, arrays3_eq, hrest']
  show iprop(((((c : Thread nD τ).loc main_v3) ↦{(fullShare : PosShare TreeShare).left} ((dat3 V c).arrAt 0 cfg3.N : Buf (Elt F) ((c : Thread nD τ).loc main_v3)))
          ∗ (((c : Thread nD τ).loc main_v3) ↦{(fullShare : PosShare TreeShare).right} ((dat3 V c).arrAt 1 cfg3.N : Buf (Elt F) ((c : Thread nD τ).loc main_v3)))
          ∗ (((c : Thread nD τ).loc main_v4) ↦{fullShare} ((dat3 V c).arrAt 2 cfg3.N : Buf (Elt F) ((c : Thread nD τ).loc main_v4))))
        ∗ Pipeline.unscopedRest spec3 c V') ⊢ _
  rw [e0, e1, ← h4]
  iintro ⟨⟨Hl, Hr, H4⟩, Hrest⟩
  isplitr [Hrest]
  swap; · iexact Hrest
  isplitr [H4]
  swap; · iexact H4
  iapply (pointsTo_share (PosShare.mem_left_op_right fullShare)).2
  isplitl [Hl]; · iexact Hl
  iexact Hr

end Cert.KernelIdeal.Frame

end
-- ==== Proof.KI.Run.lean ====
/-
  The run of @main: its five items — the host concatenation and the four kernel regions — as segments over the thread
  state "every unscoped buffer at the boundary's contents, the generator register at some state, nothing owed", and the
  launch over them: every weakly fair execution terminates, nothing faults, the result array ends at what region 3's
  write-backs leave and each argument array as launched. Regions 0, 1, 2 have distinct arrays and enter and leave by the
  library's split of the unscoped buffers; region 3 reads one array through two windows and enters and leaves by the
  half-share split proved for it.
-/
import proofs.«179463_g63213328662976_cont_sun_m_190_11_alg».proof.Proof.Gen.KernelIdeal.Launch
import proofs.«179463_g63213328662976_cont_sun_m_190_11_alg».proof.Proof.Gen.KernelIdeal.Skeleton
import proofs.«179463_g63213328662976_cont_sun_m_190_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«179463_g63213328662976_cont_sun_m_190_11_alg».proof.Proof.KI.Fold
import proofs.«179463_g63213328662976_cont_sun_m_190_11_alg».proof.Proof.KI.Share3
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-- The host operation allocates no buffer. -/
theorem hostOps0_fresh : (hostOps0 : List (HloOp τ sig (Elt F))).Forall fun op => op.fresh = ∅ := by
  simp only [List.Forall]; repeat' constructor

/-- The host stretch as a segment over the unscoped references from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W5 m c) ∗ ∃ r, prngReg c r)

set_option backward.isDefEq.respectTransparency.types false in
/-- Region 0 over the thread state: entered from every unscoped buffer at `W1`, left at `W2`. Its arrays are split out of
    the unscoped buffers and put back at the exit contents; the generator register goes into the invariant and comes
    out; nothing is owed; the kernel names no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split out of
    the unscoped buffers and put back at the exit contents; the generator register goes into the invariant and comes
    out; nothing is owed; the kernel names no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U2 m c) (U3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are split out of
    the unscoped buffers and put back at the exit contents; the generator register goes into the invariant and comes
    out; nothing is owed; the kernel names no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (U3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U3 m c) (U4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W4`, left at `W5`. The array its two operand
    windows read is split into halves at entry and joined at exit; the rest as for the other regions. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (U4 m) c).loose
  hwaits := Pipeline.hwaits_of_owed_zero _ _ _ _ L lv 3 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U4 m c)
  hentry c := by
    rw [Pipeline.ownSems0_none]
    have hsplit := entry3 (U4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N)
          ∗ Pipeline.unscopedRest (Ix := Unit) (Name := ℕ) (U := UR sig nD τ) (Lvl := ℕ) spec3 c (U4 m c))
        ⊢ (unscopedBufs c (U5 m c) : sProp 𝕄) :=
      exit3 (U4 m) c (U5 m c) (W5_out m c) (W5_of_ne m c main_v3 (by decide)) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's five segments in order. -/
abbrev segs : List (Pipeline.Seg (pcfgs (F := F)) adm (pdats m) () defs₀ 𝒱₀ L lv) :=
  [ .host (hseg0 m), .region (reg0 m), .region (reg1 m), .region (reg2 m), .region (reg3 m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has the result array at what region 3's write-backs leave and the argument arrays as launched. -/
theorem run : θ_run defs (onTc (τ := τ) (main (F := F))) ⟨m, fun _ => 0, ρ⟩ (fun r => ∀ c : Dev nD,
      r.2.mem ((c.tc : Thread nD τ).loc main_v4) = (dat3 (U4 m) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨(h c _ (mem_uc main_v4 (by decide))).trans (W5_out m c),
       (h c _ (mem_uc main_arg0 (by decide))).trans (W5_main_arg0 m c),
       (h c _ (mem_uc main_arg1 (by decide))).trans (W5_main_arg1 m c),
       (h c _ (mem_uc main_arg2 (by decide))).trans (W5_main_arg2 m c),
       (h c _ (mem_uc main_arg3 (by decide))).trans (W5_main_arg3 m c),
       (h c _ (mem_uc main_arg4 (by decide))).trans (W5_main_arg4 m c),
       (h c _ (mem_uc main_arg5 (by decide))).trans (W5_main_arg5 m c)⟩)

end Cert.KernelIdeal.Frame

end
-- ==== Proof.Spec.lean ====
/-
  The mathematics both programs compute, index by index, on the extended reals. With A = adj, X = x:
    t0  = X · W0                       (10000 × 32)
    hid = max (A · t0) 0               (10000 × 32)
    mu  = A · (hid · W_mu),  ls = A · (hid · W_logstd)      (10000 × 16)
    z   = noise ⊙ exp ls + mu          (10000 × 16)
    out = logistic (z · zᵀ)            (10000 × 10000)
  The kernel forms hid · [W_mu | W_logstd] in one product and takes A times it in one sweep; column j < 16 of that
  product is column j of hid · W_mu and column 16 + j is column j of hid · W_logstd, term by term, so nothing but the
  reading of a concatenation at an index joins the two forms: no algebraic law, no finiteness.
  The four stages are stated as functions of the arrays a stage reads (`T0`, `C`, `Z`, `A`; as arrays `T0arr`,
  `Carr`, `Zarr`, `Aarr`), which is how the kernel's regions compute them, and the kernel's result as their
  composition.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A two-axis array of extended reals. -/
abbrev Arr (a b : Nat) : Type := (⟨2, ![a, b]⟩ : Shape).Idx → EReal

/-- An array from its entries by coordinates. -/
def ofFn {a b : Nat} (f : Fin a → Fin b → EReal) : Arr a b := fun i => f (i 0) (i 1)

theorem ofFn_ix2 {a b : Nat} (f : Fin a → Fin b → EReal) (r : Fin a) (k : Fin b) : ofFn f (ix2 r k) = f r k := rfl

/-- Stage 0: an entry of the product X · W0. -/
def T0 (x : Arr 10000 128) (w0 : Arr 128 32) (r : Fin 10000) (k : Fin 32) : EReal :=
  ∑ l : Fin 128, x (ix2 r l) * w0 (ix2 l k)
def T0arr (x : Arr 10000 128) (w0 : Arr 128 32) : Arr 10000 32 := ofFn (T0 x w0)

/-- Stage 1: an entry of max (A · t0) 0 times a 32 × 32 matrix. -/
def C (adj : Arr 10000 10000) (t0 : Arr 10000 32) (wc : Arr 32 32) (r : Fin 10000) (j : Fin 32) : EReal :=
  ∑ k : Fin 32, max (∑ l : Fin 10000, adj (ix2 r l) * t0 (ix2 l k)) 0 * wc (ix2 k j)
def Carr (adj : Arr 10000 10000) (t0 : Arr 10000 32) (wc : Arr 32 32) : Arr 10000 32 := ofFn (C adj t0 wc)

/-- The column 16 + j of a 32-column array. -/
def hi16 (j : Fin 16) : Fin 32 := ⟨16 + j.val, by omega⟩
/-- The column j of a 32-column array, j < 16. -/
def lo16 (j : Fin 16) : Fin 32 := ⟨j.val, by omega⟩

/-- Stage 2: A times a 32-column array, its upper 16 columns exponentiated and scaled by the noise, its lower 16 added. -/
def Z (adj : Arr 10000 10000) (c : Arr 10000 32) (noise : Arr 10000 16) (r : Fin 10000) (j : Fin 16) : EReal :=
  noise (ix2 r j) * Ideal.exp (∑ l : Fin 10000, adj (ix2 r l) * c (ix2 l (hi16 j)))
    + ∑ l : Fin 10000, adj (ix2 r l) * c (ix2 l (lo16 j))
def Zarr (adj : Arr 10000 10000) (c : Arr 10000 32) (noise : Arr 10000 16) : Arr 10000 16 := ofFn (Z adj c noise)

/-- Stage 3: an entry of the logistic of z · zᵀ. -/
def A (z : Arr 10000 16) (r s : Fin 10000) : EReal :=
  Ideal.logistic (∑ k : Fin 16, z (ix2 r k) * z (ix2 s k))
def Aarr (z : Arr 10000 16) : Arr 10000 10000 := ofFn (A z)

/-- [W_mu | W_logstd] by coordinates. -/
def catWf (wm wl : Arr 32 16) (k : Fin 32) (j : Fin 32) : EReal :=
  if h : j.val < 16 then wm (ix2 k ⟨j.val, h⟩) else wl (ix2 k ⟨j.val - 16, by omega⟩)
def catW (wm wl : Arr 32 16) : Arr 32 32 := ofFn (catWf wm wl)

/-- What the kernel's four regions compute in turn. -/
def kernelOut (x : Arr 10000 128) (adj : Arr 10000 10000) (noise : Arr 10000 16) (w0 : Arr 128 32) (wm wl : Arr 32 16) : Arr 10000 10000 :=
  Aarr (Zarr adj (Carr adj (T0arr x w0) (catW wm wl)) noise)

/-- hidden = max (A · (X · W0)) 0 at an index. -/
def hid (x : Arr 10000 128) (adj : Arr 10000 10000) (w0 : Arr 128 32) (r : Fin 10000) (k : Fin 32) : EReal :=
  max (∑ l : Fin 10000, adj (ix2 r l) * T0 x w0 l k) 0

/-- A · (hidden · W) at an index, for a 32 × 16 weight W (the mean and the log-deviation heads). -/
def head (x : Arr 10000 128) (adj : Arr 10000 10000) (w0 : Arr 128 32) (w : Arr 32 16) (r : Fin 10000) (j : Fin 16) : EReal :=
  ∑ l : Fin 10000, adj (ix2 r l) * ∑ k : Fin 32, hid x adj w0 l k * w (ix2 k j)

/-- z = noise ⊙ exp ls + mu at an index. -/
def zRef (x : Arr 10000 128) (adj : Arr 10000 10000) (noise : Arr 10000 16) (w0 : Arr 128 32) (wm wl : Arr 32 16) (r : Fin 10000) (j : Fin 16) : EReal :=
  noise (ix2 r j) * Ideal.exp (head x adj w0 wl r j) + head x adj w0 wm r j

/-- What the reference computes, by coordinates. -/
def refOutF (x : Arr 10000 128) (adj : Arr 10000 10000) (noise : Arr 10000 16) (w0 : Arr 128 32) (wm wl : Arr 32 16) (r s : Fin 10000) : EReal :=
  Ideal.logistic (∑ k : Fin 16, zRef x adj noise w0 wm wl r k * zRef x adj noise w0 wm wl s k)
def refOut (x : Arr 10000 128) (adj : Arr 10000 10000) (noise : Arr 10000 16) (w0 : Arr 128 32) (wm wl : Arr 32 16) : Arr 10000 10000 :=
  ofFn (refOutF x adj noise w0 wm wl)

theorem catW_lo (wm wl : Arr 32 16) (k : Fin 32) (j : Fin 16) : catW wm wl (ix2 k (lo16 j)) = wm (ix2 k j) := by
  show catWf wm wl k (lo16 j) = _
  unfold catWf
  have h : (lo16 j).val < 16 := j.isLt
  rw [dif_pos h]; rfl

theorem catW_hi (wm wl : Arr 32 16) (k : Fin 32) (j : Fin 16) : catW wm wl (ix2 k (hi16 j)) = wl (ix2 k j) := by
  show catWf wm wl k (hi16 j) = _
  unfold catWf
  have h : ¬ (hi16 j).val < 16 := by show ¬ (16 + j.val < 16); omega
  rw [dif_neg h]
  congr 2
  exact Fin.ext (by show 16 + j.val - 16 = j.val; omega)

/-- The two forms are one function: the kernel's single product against [W_mu | W_logstd], read at a low column, is
    the product against W_mu, and at a high column the product against W_logstd. -/
theorem kernelOut_eq_refOut (x : Arr 10000 128) (adj : Arr 10000 10000) (noise : Arr 10000 16) (w0 : Arr 128 32) (wm wl : Arr 32 16) :
    kernelOut x adj noise w0 wm wl = refOut x adj noise w0 wm wl := by
  have hz : ∀ (r : Fin 10000) (j : Fin 16),
      Zarr adj (Carr adj (T0arr x w0) (catW wm wl)) noise (ix2 r j) = zRef x adj noise w0 wm wl r j := by
    intro r j
    show Z adj (Carr adj (T0arr x w0) (catW wm wl)) noise r j = _
    unfold Z zRef head hid
    simp only [Carr, T0arr, ofFn_ix2, C, catW_lo, catW_hi]
  funext i
  obtain ⟨r, s, rfl⟩ : ∃ (r s : Fin 10000), i = ix2 r s := ⟨i 0, i 1, eq_ix2 i⟩
  show A (Zarr adj (Carr adj (T0arr x w0) (catW wm wl)) noise) r s = refOutF x adj noise w0 wm wl r s
  unfold A refOutF
  simp only [hz]

end Cert.Spec

end
-- ==== Proof.KI.Val0.lean ====
/-
  The values the kernel's first and last regions leave in their output arrays, as functions of the arrays the
  regions are entered with.
  Region 0 (one point, every block the whole array) multiplies x (10000 × 128) by W0 (128 × 32) on the matrix
  unit into a zero accumulator: its output array ends holding the product, entry (r, k) being
  ∑ l, x r l · W0 l k.
  Region 3 (25 points; point t owns rows 400·t … 400·t + 399) contracts the column axes of a 400-row block of z
  and of the whole of z and applies the logistic function: its output array ends holding, at (r, s),
  logistic (∑ k, z r k · z s k).
-/
import proofs.«179463_g63213328662976_cont_sun_m_190_11_alg».proof.Proof.KI.Body0
import proofs.«179463_g63213328662976_cont_sun_m_190_11_alg».proof.Proof.KI.Body1
import proofs.«179463_g63213328662976_cont_sun_m_190_11_alg».proof.Proof.KI.Body2
import proofs.«179463_g63213328662976_cont_sun_m_190_11_alg».proof.Proof.KI.Body3
import proofs.«179463_g63213328662976_cont_sun_m_190_11_alg».proof.Proof.Spec
import Idealize.ShloMosaic.Lib.Pipeline.Value
import Idealize.ShloMosaic.Lib.ValueIdx
import Idealize.ShloMosaic.PureOps.Ideal.Laws

noncomputable section

namespace Cert.KernelIdeal.KVal

open Cert.KernelIdeal Cert.KernelIdeal.Gen Cert.KernelIdeal.Frame
open Idealize.ShloMosaic Idealize.ShloMosaic.TcCoe Idealize.SL.Sem Idealize.ShloMosaic.ValueIdx

variable (V : (c : Dev nD) → (b : Ref sig .tc) → Buf (Elt Ideal) ((c : Thread nD τ).loc b))

/-! ## Region 0: the product x · W0 -/

/-- The zero offsets of a whole-buffer rectangle, as the constant function. -/
theorem zero_off_0 : (![0, 0] : Fin 2 → Nat) = fun _ => 0 := funext fun a => by fin_cases a <;> rfl

/-- The left operand's row coordinate is the output's row. -/
theorem lhs_prod_0_0 (i : S10000x32.Idx) (q : Cert.KernelIdeal.dot_S10000x128_S128x32_S10000x32_1_0_0_1_n_n.contr.Idx) :
    (Cert.KernelIdeal.dot_S10000x128_S128x32_S10000x32_1_0_0_1_n_n.lhsIdx i q 0).val = (i 0).val := by
  unfold DotDims.lhsIdx
  rw [dif_neg (show ¬(0 : Fin S10000x128.rank) ∈ Cert.KernelIdeal.dot_S10000x128_S128x32_S10000x32_1_0_0_1_n_n.lhsBatch by decide), dif_pos (show (0 : Fin S10000x128.rank) ∈ Cert.KernelIdeal.dot_S10000x128_S128x32_S10000x32_1_0_0_1_n_n.lhsNonContracting by decide)]
  rfl
/-- The left operand's column coordinate is the contraction position. -/
theorem lhs_prod_0_1 (i : S10000x32.Idx) (q : Cert.KernelIdeal.dot_S10000x128_S128x32_S10000x32_1_0_0_1_n_n.contr.Idx) :
    (Cert.KernelIdeal.dot_S10000x128_S128x32_S10000x32_1_0_0_1_n_n.lhsIdx i q 1).val = (q ⟨0, by decide⟩).val :=
  Cert.KernelIdeal.dot_S10000x128_S128x32_S10000x32_1_0_0_1_n_n.lhsIdx_val_of_single rfl i q
/-- The right operand's row coordinate is the contraction position. -/
theorem rhs_prod_0_0 (i : S10000x32.Idx) (q : Cert.KernelIdeal.dot_S10000x128_S128x32_S10000x32_1_0_0_1_n_n.contr.Idx) :
    (Cert.KernelIdeal.dot_S10000x128_S128x32_S10000x32_1_0_0_1_n_n.rhsIdx i q 0).val = (q ⟨0, by decide⟩).val :=
  Cert.KernelIdeal.dot_S10000x128_S128x32_S10000x32_1_0_0_1_n_n.rhsIdx_val_of_single rfl i q
/-- The right operand's column coordinate is the output's column. -/
theorem rhs_prod_0_1 (i : S10000x32.Idx) (q : Cert.KernelIdeal.dot_S10000x128_S128x32_S10000x32_1_0_0_1_n_n.contr.Idx) :
    (Cert.KernelIdeal.dot_S10000x128_S128x32_S10000x32_1_0_0_1_n_n.rhsIdx i q 1).val = (i 1).val := by
  unfold DotDims.rhsIdx
  rw [dif_neg (show ¬(1 : Fin S128x32.rank) ∈ Cert.KernelIdeal.dot_S10000x128_S128x32_S10000x32_1_0_0_1_n_n.rhsBatch by decide), dif_pos (show (1 : Fin S128x32.rank) ∈ Cert.KernelIdeal.dot_S10000x128_S128x32_S10000x32_1_0_0_1_n_n.rhsNonContracting by decide)]
  rfl

/-- The body's arithmetic at an entry: the sum over the 128 contraction positions. -/
theorem pay_apply_0 (x0 : Vec Ideal S10000x128 .f32) (x1 : Vec Ideal S128x32 .f32) (p : Fin 10000) (q : Fin 32) :
    k0_pay1 (F := Ideal) x0 x1 (ix2 p q) = ∑ l : Fin 128, x0 (ix2 p l) * x1 (ix2 l q) := by
  unfold k0_pay1
  refine (Ideal.matmul_constant_zero_apply Cert.KernelIdeal.dot_S10000x128_S128x32_S10000x32_1_0_0_1_n_n none x0 x1 (ix2 p q)).trans ?_
  rw [← Equiv.sum_comp (contrEquiv1 Cert.KernelIdeal.dot_S10000x128_S128x32_S10000x32_1_0_0_1_n_n 128 rfl rfl).symm]
  refine Finset.sum_congr rfl fun k _ => ?_
  have hk := contrEquiv1_symm_val Cert.KernelIdeal.dot_S10000x128_S128x32_S10000x32_1_0_0_1_n_n 128 rfl rfl k
  have el : Cert.KernelIdeal.dot_S10000x128_S128x32_S10000x32_1_0_0_1_n_n.lhsIdx (ix2 p q) ((contrEquiv1 Cert.KernelIdeal.dot_S10000x128_S128x32_S10000x32_1_0_0_1_n_n 128 rfl rfl).symm k) = ix2 p k := funext fun a => Fin.ext (by
    match a with
    | ⟨0, _⟩ => exact lhs_prod_0_0 _ _
    | ⟨1, _⟩ => exact (lhs_prod_0_1 _ _).trans hk)
  have er : Cert.KernelIdeal.dot_S10000x128_S128x32_S10000x32_1_0_0_1_n_n.rhsIdx (ix2 p q) ((contrEquiv1 Cert.KernelIdeal.dot_S10000x128_S128x32_S10000x32_1_0_0_1_n_n 128 rfl rfl).symm k) = ix2 k q := funext fun a => Fin.ext (by
    match a with
    | ⟨0, _⟩ => exact (rhs_prod_0_0 _ _).trans hk
    | ⟨1, _⟩ => exact rhs_prod_0_1 _ _)
  rw [el, er]

/-- On whole operands the body's arithmetic is the product, as one array. -/
theorem pay_eq_0 (x0 : Vec Ideal S10000x128 .f32) (x1 : Vec Ideal S128x32 .f32) :
    k0_pay1 (F := Ideal) x0 x1 = Cert.Spec.T0arr x0 x1 := by
  funext j
  obtain ⟨p, q, rfl⟩ : ∃ (p : Fin 10000) (q : Fin 32), j = ix2 p q := ⟨j 0, j 1, eq_ix2 j⟩
  rw [pay_apply_0]
  rfl

/-- The left operand's one block is its whole array. -/
theorem blk_x_0 (c : Dev nD) (t : Fin cfg0.N) : iblk0 V c 0 t = V c main_arg0 := by
  funext y
  show V c main_arg0 (((cfg0.win 0).blk t).view.emb y) = V c main_arg0 y
  refine congrArg _ (funext fun a => Fin.ext ?_)
  match a with
  | ⟨0, _⟩ => show 0 * 10000 + 1 * (y 0).val = (y 0).val; omega
  | ⟨1, _⟩ => show 0 * 128 + 1 * (y 1).val = (y 1).val; omega

/-- The right operand's one block is its whole array. -/
theorem blk_w_0 (c : Dev nD) (t : Fin cfg0.N) : iblk0 V c 1 t = V c main_arg3 := by
  funext y
  show V c main_arg3 (((cfg0.win 1).blk t).view.emb y) = V c main_arg3 y
  refine congrArg _ (funext fun a => Fin.ext ?_)
  match a with
  | ⟨0, _⟩ => show 0 * 128 + 1 * (y 0).val = (y 0).val; omega
  | ⟨1, _⟩ => show 0 * 32 + 1 * (y 1).val = (y 1).val; omega

/-- What the one point writes back is its block of the product of the arrays the region is entered with. -/
theorem flushed_eq_0 (c : Dev nD) (t : Fin cfg0.N) :
    (dat0 (F := Ideal) V c).flushed 2 t
      = ((cfg0.win 2).blk t).view.read (Elt Ideal) (Cert.Spec.T0arr (V c main_arg0) (V c main_arg3)) := by
  show (cfg0.win 2).cut (grid0.coords t) ((dat0 V c).after 2 t) = _
  rw [after0_2]
  unfold out0_2
  rw [View.canon_unit_zero zero_off_0]
  simp only [View.ld_unit_zero (S := S10000x128) zero_off_0, View.ld_unit_zero (S := S128x32) zero_off_0]
  rw [blk_x_0, blk_w_0, pay_eq_0]
  funext j
  show Cert.Spec.T0arr (V c main_arg0) (V c main_arg3) ((cfg0.win 2).xinj (grid0.coords t) j)
    = Cert.Spec.T0arr (V c main_arg0) (V c main_arg3) (((cfg0.win 2).blk t).view.emb j)
  refine congrArg _ (funext fun a => Fin.ext ?_)
  match a with
  | ⟨0, _⟩ => show (j 0).val = 0 * 10000 + 1 * (j 0).val; omega
  | ⟨1, _⟩ => show (j 1).val = 0 * 32 + 1 * (j 1).val; omega

/-- An entry of the output array lies in the one point's block iff each coordinate lies in the block's range. -/
theorem mem_blk_0 (t : Fin cfg0.N) (i : S10000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v1).slice (win0_2.rect t)).set ↔ _
  rw [View.set_slice_whole, Rect.mem_set_unit]
  exact Iff.rfl

/-- The one point's block is the whole output array. -/
theorem cover_0 (i : S10000x32.Idx) :
    ∃ t : Fin cfg0.N, (cfg0.win 2).flush t = true ∧ i ∈ ((cfg0.win 2).blk t).view.set := by
  refine ⟨t0_0, flush0_2 t0_0, ?_⟩
  rw [mem_blk_0]
  intro a
  have h0 : (i 0).val < 10000 := (i 0).isLt
  have h1 : (i 1).val < 32 := (i 1).isLt
  match a with
  | ⟨0, _⟩ => show 0 * 10000 ≤ (i 0).val ∧ (i 0).val < 0 * 10000 + 10000; omega
  | ⟨1, _⟩ => show 0 * 32 ≤ (i 1).val ∧ (i 1).val < 0 * 32 + 32; omega

/-- The array region 0 writes ends holding the product of the two arrays it reads. -/
theorem final0 (c : Dev nD) : (dat0 (F := Ideal) V c).arrAt 2 cfg0.N = Cert.Spec.T0arr (V c main_arg0) (V c main_arg3) :=
  (dat0 (F := Ideal) V c).arrAt_eq_of_cover 2 (Cert.Spec.T0arr (V c main_arg0) (V c main_arg3))
    (fun t _ => flushed_eq_0 V c t) (cover_0)

/-! ## Region 3: the logistic of z · zᵀ, 400 rows a point -/

/-- The left operand's row coordinate is the output's row. -/
theorem lhs_gram_3_0 (i : S400x10000.Idx) (q : Cert.KernelIdeal.dot_S400x16_S10000x16_S400x10000_1_1_0_0_n_n.contr.Idx) :
    (Cert.KernelIdeal.dot_S400x16_S10000x16_S400x10000_1_1_0_0_n_n.lhsIdx i q 0).val = (i 0).val := by
  unfold DotDims.lhsIdx
  rw [dif_neg (show ¬(0 : Fin S400x16.rank) ∈ Cert.KernelIdeal.dot_S400x16_S10000x16_S400x10000_1_1_0_0_n_n.lhsBatch by decide), dif_pos (show (0 : Fin S400x16.rank) ∈ Cert.KernelIdeal.dot_S400x16_S10000x16_S400x10000_1_1_0_0_n_n.lhsNonContracting by decide)]
  rfl
/-- The left operand's column coordinate is the contraction position. -/
theorem lhs_gram_3_1 (i : S400x10000.Idx) (q : Cert.KernelIdeal.dot_S400x16_S10000x16_S400x10000_1_1_0_0_n_n.contr.Idx) :
    (Cert.KernelIdeal.dot_S400x16_S10000x16_S400x10000_1_1_0_0_n_n.lhsIdx i q 1).val = (q ⟨0, by decide⟩).val :=
  Cert.KernelIdeal.dot_S400x16_S10000x16_S400x10000_1_1_0_0_n_n.lhsIdx_val_of_single rfl i q
/-- The right operand's ROW coordinate is the output's column: the right operand enters transposed. -/
theorem rhs_gram_3_0 (i : S400x10000.Idx) (q : Cert.KernelIdeal.dot_S400x16_S10000x16_S400x10000_1_1_0_0_n_n.contr.Idx) :
    (Cert.KernelIdeal.dot_S400x16_S10000x16_S400x10000_1_1_0_0_n_n.rhsIdx i q 0).val = (i 1).val := by
  unfold DotDims.rhsIdx
  rw [dif_neg (show ¬(0 : Fin S10000x16.rank) ∈ Cert.KernelIdeal.dot_S400x16_S10000x16_S400x10000_1_1_0_0_n_n.rhsBatch by decide), dif_pos (show (0 : Fin S10000x16.rank) ∈ Cert.KernelIdeal.dot_S400x16_S10000x16_S400x10000_1_1_0_0_n_n.rhsNonContracting by decide)]
  rfl
/-- The right operand's column coordinate is the contraction position. -/
theorem rhs_gram_3_1 (i : S400x10000.Idx) (q : Cert.KernelIdeal.dot_S400x16_S10000x16_S400x10000_1_1_0_0_n_n.contr.Idx) :
    (Cert.KernelIdeal.dot_S400x16_S10000x16_S400x10000_1_1_0_0_n_n.rhsIdx i q 1).val = (q ⟨0, by decide⟩).val :=
  Cert.KernelIdeal.dot_S400x16_S10000x16_S400x10000_1_1_0_0_n_n.rhsIdx_val_of_single rfl i q

/-- The body's arithmetic at an entry: the logistic of the inner product of row p of the block and row s of the whole. -/
theorem pay_apply_3 (x0 : Vec Ideal S400x16 .f32) (x1 : Vec Ideal S10000x16 .f32) (p : Fin 400) (s : Fin 10000) :
    k3_pay1 (F := Ideal) x0 x1 (ix2 p s) = Ideal.logistic (∑ k : Fin 16, x0 (ix2 p k) * x1 (ix2 s k)) := by
  unfold k3_pay1
  show Ideal.logistic (FloatOps.matmul Cert.KernelIdeal.dot_S400x16_S10000x16_S400x10000_1_1_0_0_n_n none
      (shapeCast S400x16 x0 shapeCasts_S400x16_S400x16) (shapeCast S10000x16 x1 shapeCasts_S10000x16_S10000x16)
      (constant (F := Ideal) S400x10000 .f32 0x00000000#32) (ix2 p s)) = _
  rw [shapeCast_self, shapeCast_self]
  refine congrArg Ideal.logistic ?_
  refine (Ideal.matmul_constant_zero_apply Cert.KernelIdeal.dot_S400x16_S10000x16_S400x10000_1_1_0_0_n_n none x0 x1 (ix2 p s)).trans ?_
  rw [← Equiv.sum_comp (contrEquiv1 Cert.KernelIdeal.dot_S400x16_S10000x16_S400x10000_1_1_0_0_n_n 16 rfl rfl).symm]
  refine Finset.sum_congr rfl fun k _ => ?_
  have hk := contrEquiv1_symm_val Cert.KernelIdeal.dot_S400x16_S10000x16_S400x10000_1_1_0_0_n_n 16 rfl rfl k
  have el : Cert.KernelIdeal.dot_S400x16_S10000x16_S400x10000_1_1_0_0_n_n.lhsIdx (ix2 p s) ((contrEquiv1 Cert.KernelIdeal.dot_S400x16_S10000x16_S400x10000_1_1_0_0_n_n 16 rfl rfl).symm k) = ix2 p k := funext fun a => Fin.ext (by
    match a with
    | ⟨0, _⟩ => exact lhs_gram_3_0 _ _
    | ⟨1, _⟩ => exact (lhs_gram_3_1 _ _).trans hk)
  have er : Cert.KernelIdeal.dot_S400x16_S10000x16_S400x10000_1_1_0_0_n_n.rhsIdx (ix2 p s) ((contrEquiv1 Cert.KernelIdeal.dot_S400x16_S10000x16_S400x10000_1_1_0_0_n_n 16 rfl rfl).symm k) = ix2 s k := funext fun a => Fin.ext (by
    match a with
    | ⟨0, _⟩ => exact rhs_gram_3_0 _ _
    | ⟨1, _⟩ => exact (rhs_gram_3_1 _ _).trans hk)
  rw [el, er]

/-- The printed index maps over the 25 points: the row-blocked windows sit at block row t, column block 0; the
    whole-array window at block (0, 0). -/
theorem idx_facts_3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0
    ∧ t.val ≤ 24 :=
  (by decide +kernel : ∀ t : Fin grid3.N, _)

/-- Row p of point t's block of z is row 400·t + p of z. -/
theorem blk_rows_3 (c : Dev nD) (t : Fin cfg3.N) (p : Fin 400) (k : Fin 16) (r : Fin 10000) (hr : r.val = t.val * 400 + p.val) :
    iblk3 V c 0 t (ix2 p k) = V c main_v3 (ix2 r k) := by
  obtain ⟨e0, e1, -, -, -, -, -⟩ := idx_facts_3 t
  show V c main_v3 (((cfg3.win 0).blk t).view.emb (ix2 p k)) = V c main_v3 (ix2 r k)
  refine congrArg _ (funext fun a => Fin.ext ?_)
  match a with
  | ⟨0, _⟩ => show win3_0.index t (0 : Fin 2) * 400 + 1 * p.val = r.val; omega
  | ⟨1, _⟩ => show win3_0.index t (1 : Fin 2) * 16 + 1 * k.val = k.val; omega

/-- The second window's block is the whole of z, at every point. -/
theorem blk_all_3 (c : Dev nD) (t : Fin cfg3.N) (s : Fin 10000) (k : Fin 16) :
    iblk3 V c 1 t (ix2 s k) = V c main_v3 (ix2 s k) := by
  obtain ⟨-, -, e2, e3, -, -, -⟩ := idx_facts_3 t
  show V c main_v3 (((cfg3.win 1).blk t).view.emb (ix2 s k)) = V c main_v3 (ix2 s k)
  refine congrArg _ (funext fun a => Fin.ext ?_)
  match a with
  | ⟨0, _⟩ => show win3_1.index t (0 : Fin 2) * 10000 + 1 * s.val = s.val; omega
  | ⟨1, _⟩ => show win3_1.index t (1 : Fin 2) * 16 + 1 * k.val = k.val; omega

/-- The target at an entry: the logistic of the inner product of rows r and s of z. -/
theorem gram_entry_3 (z : Cert.Spec.Arr 10000 16) (r s : Fin 10000) :
    Cert.Spec.Aarr z (ix2 r s) = Ideal.logistic (∑ k : Fin 16, z (ix2 r k) * z (ix2 s k)) := rfl

/-- What point t writes back is its block of the logistic of z · zᵀ, z the array the region is entered with. -/
theorem flushed_eq_3 (c : Dev nD) (t : Fin cfg3.N) :
    (dat3 (F := Ideal) V c).flushed 2 t
      = ((cfg3.win 2).blk t).view.read (Elt Ideal) (Cert.Spec.Aarr (V c main_v3)) := by
  show (cfg3.win 2).cut (grid3.coords t) ((dat3 V c).after 2 t) = _
  rw [after3_2]
  unfold out3_2
  rw [View.canon_unit_zero zero_off_0]
  simp only [View.ld_unit_zero (S := S400x16) zero_off_0, View.ld_unit_zero (S := S10000x16) zero_off_0]
  obtain ⟨-, -, -, -, e4, e5, e6⟩ := idx_facts_3 t
  funext j
  have hp : (j 0).val < 400 := (j 0).isLt
  have hs : (j 1).val < 10000 := (j 1).isLt
  have ej : (cfg3.win 2).xinj (grid3.coords t) j = ix2 (⟨(j 0).val, hp⟩ : Fin 400) (⟨(j 1).val, hs⟩ : Fin 10000) :=
    funext fun a => Fin.ext (by
      match a with
      | ⟨0, _⟩ => rfl
      | ⟨1, _⟩ => rfl)
  have hr : t.val * 400 + (j 0).val < 10000 := by omega
  have ei : ((cfg3.win 2).blk t).view.emb j = ix2 (⟨t.val * 400 + (j 0).val, hr⟩ : Fin 10000) (⟨(j 1).val, hs⟩ : Fin 10000) :=
    funext fun a => Fin.ext (by
      match a with
      | ⟨0, _⟩ => show win3_2.index t (0 : Fin 2) * 400 + 1 * (j 0).val = t.val * 400 + (j 0).val; omega
      | ⟨1, _⟩ => show win3_2.index t (1 : Fin 2) * 10000 + 1 * (j 1).val = (j 1).val; omega)
  show k3_pay1 (F := Ideal) (iblk3 V c 0 t) (iblk3 V c 1 t) ((cfg3.win 2).xinj (grid3.coords t) j)
    = Cert.Spec.Aarr (V c main_v3) (((cfg3.win 2).blk t).view.emb j)
  refine (congrArg (k3_pay1 (F := Ideal) (iblk3 V c 0 t) (iblk3 V c 1 t)) ej).trans ?_
  refine (pay_apply_3 (iblk3 V c 0 t) (iblk3 V c 1 t) _ _).trans ?_
  refine Eq.trans ?_ (congrArg (Cert.Spec.Aarr (V c main_v3)) ei).symm
  refine Eq.trans ?_ (gram_entry_3 (V c main_v3) ⟨t.val * 400 + (j 0).val, hr⟩ ⟨(j 1).val, hs⟩).symm
  refine congrArg Ideal.logistic (Finset.sum_congr rfl fun k _ => ?_)
  rw [blk_rows_3 V c t ⟨(j 0).val, hp⟩ k ⟨t.val * 400 + (j 0).val, hr⟩ rfl, blk_all_3 V c t ⟨(j 1).val, hs⟩ k]

/-- An entry of the output array lies in point t's block iff each coordinate lies in the block's range. -/
theorem mem_blk_3 (t : Fin cfg3.N) (i : S10000x10000.Idx) :
    i ∈ ((cfg3.win 2).blk t).view.set ↔ ∀ a : Fin 2, win3_2.index t a * S400x10000.size a ≤ (i a).val ∧ (i a).val < win3_2.index t a * S400x10000.size a + S400x10000.size a := by
  show i ∈ ((View.whole main_v4).slice (win3_2.rect t)).set ↔ _
  rw [View.set_slice_whole, Rect.mem_set_unit]
  exact Iff.rfl

/-- Row r of the output array is in the block of point r / 400. -/
theorem cover_3 (i : S10000x10000.Idx) :
    ∃ t : Fin cfg3.N, (cfg3.win 2).flush t = true ∧ i ∈ ((cfg3.win 2).blk t).view.set := by
  have h0 : (i 0).val < 10000 := (i 0).isLt
  have h1 : (i 1).val < 10000 := (i 1).isLt
  have hN : cfg3.N = 25 := N_3
  have ht : (i 0).val / 400 < cfg3.N := by rw [hN]; omega
  obtain ⟨-, -, -, -, e4, e5, -⟩ := idx_facts_3 ⟨(i 0).val / 400, ht⟩
  have e4' : win3_2.index ⟨(i 0).val / 400, ht⟩ (0 : Fin 2) = (i 0).val / 400 := e4
  refine ⟨⟨(i 0).val / 400, ht⟩, flush3_2 _, ?_⟩
  rw [mem_blk_3]
  intro a
  match a with
  | ⟨0, _⟩ =>
    show win3_2.index ⟨(i 0).val / 400, ht⟩ (0 : Fin 2) * 400 ≤ (i 0).val ∧ (i 0).val < win3_2.index ⟨(i 0).val / 400, ht⟩ (0 : Fin 2) * 400 + 400
    omega
  | ⟨1, _⟩ =>
    show win3_2.index ⟨(i 0).val / 400, ht⟩ (1 : Fin 2) * 10000 ≤ (i 1).val ∧ (i 1).val < win3_2.index ⟨(i 0).val / 400, ht⟩ (1 : Fin 2) * 10000 + 10000
    omega

/-- The array region 3 writes ends holding the logistic of z · zᵀ, z the array it reads through both windows. -/
theorem final3 (c : Dev nD) : (dat3 (F := Ideal) V c).arrAt 2 cfg3.N = Cert.Spec.Aarr (V c main_v3) :=
  (dat3 (F := Ideal) V c).arrAt_eq_of_cover 2 (Cert.Spec.Aarr (V c main_v3))
    (fun t _ => flushed_eq_3 V c t) (cover_3)

end Cert.KernelIdeal.KVal

end
-- ==== Proof.KI.Val1.lean ====
/-
  Region 1 of the kernel, read as mathematics. Its 25 grid points each take a block of 400 rows of adj, all of t0 and
  all of the 32 × 32 weight matrix wc, and write the matching 400 rows of
      c = max (adj · t0) 0 · wc.
  First the body's arithmetic at one entry of a block (two products, each a sum over its contraction index, with a
  maximum against zero between them); then each operand block as entries of its array (row 400·t + p of adj for the row
  block, the arrays themselves for the two whole operands); then what point t writes back, which is block t of the
  stage's array `Cert.Spec.Carr`; and last the 25 row blocks cover the 10000 rows, so the array ends holding it.
-/
import proofs.«179463_g63213328662976_cont_sun_m_190_11_alg».proof.Proof.KI.Body0
import proofs.«179463_g63213328662976_cont_sun_m_190_11_alg».proof.Proof.KI.Body1
import proofs.«179463_g63213328662976_cont_sun_m_190_11_alg».proof.Proof.KI.Body2
import proofs.«179463_g63213328662976_cont_sun_m_190_11_alg».proof.Proof.KI.Body3
import proofs.«179463_g63213328662976_cont_sun_m_190_11_alg».proof.Proof.Spec
import Idealize.ShloMosaic.Lib.Pipeline.Value
import Idealize.ShloMosaic.Lib.ValueIdx
import Idealize.ShloMosaic.PureOps.Ideal.Laws

noncomputable section

namespace Cert.KernelIdeal.KVal

open Cert.KernelIdeal Cert.KernelIdeal.Gen Cert.KernelIdeal.Frame
open Idealize.ShloMosaic Idealize.ShloMosaic.TcCoe Idealize.SL.Sem Idealize.ShloMosaic.ValueIdx

variable (V : (c : Dev nD) → (b : Ref sig .tc) → Buf (Elt Ideal) ((c : Thread nD τ).loc b))

/-! ## The two products at an entry -/

/-- The first product's left operand is read at the output's row -/
theorem lhs_adjt0_0_1 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
/-- and the contraction position's column; -/
theorem lhs_adjt0_1_1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
/-- its right operand at the contraction position's row -/
theorem rhs_adjt0_0_1 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
/-- and the output's column. -/
theorem rhs_adjt0_1_1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- (adj block · t0) at entry (p, q): the sum over the 10000 columns of the block's row p against t0's column q. -/
theorem matmul_adjt0_1 (l : FVec Ideal S400x10000 .f32) (r : FVec Ideal S10000x32 .f32) (p : Fin 400) (q : Fin 32) :
    matmul dot_S400x10000_S10000x32_S400x32_1_0_0_1_n_n none l r (constant (F := Ideal) S400x32 .f32 0x00000000#32) (ix2 p q)
      = ∑ k : Fin 10000, l (ix2 p k) * r (ix2 k q) := by
  refine (Ideal.matmul_constant_zero_apply dot_S400x10000_S10000x32_S400x32_1_0_0_1_n_n none l r (ix2 p q)).trans ?_
  rw [← Equiv.sum_comp (contrEquiv1 dot_S400x10000_S10000x32_S400x32_1_0_0_1_n_n 10000 rfl rfl).symm]
  refine Finset.sum_congr rfl fun k _ => ?_
  have hk := contrEquiv1_symm_val dot_S400x10000_S10000x32_S400x32_1_0_0_1_n_n 10000 rfl rfl k
  have el : dot_S400x10000_S10000x32_S400x32_1_0_0_1_n_n.lhsIdx (ix2 p q) ((contrEquiv1 dot_S400x10000_S10000x32_S400x32_1_0_0_1_n_n 10000 rfl rfl).symm k) = ix2 p k := funext fun a => Fin.ext (by
    match a with
    | ⟨0, _⟩ => exact lhs_adjt0_0_1 _ _
    | ⟨1, _⟩ => exact (lhs_adjt0_1_1 _ _).trans hk)
  have er : dot_S400x10000_S10000x32_S400x32_1_0_0_1_n_n.rhsIdx (ix2 p q) ((contrEquiv1 dot_S400x10000_S10000x32_S400x32_1_0_0_1_n_n 10000 rfl rfl).symm k) = ix2 k q := funext fun a => Fin.ext (by
    match a with
    | ⟨0, _⟩ => exact (rhs_adjt0_0_1 _ _).trans hk
    | ⟨1, _⟩ => exact rhs_adjt0_1_1 _ _)
  rw [el, er]

/-- The second product's left operand is read at the output's row -/
theorem lhs_hwc_0_1 (i : S400x32.Idx) (q : dot_S400x32_S32x32_S400x32_1_0_0_1_n_n.contr.Idx) :
    (dot_S400x32_S32x32_S400x32_1_0_0_1_n_n.lhsIdx i q 0).val = (i 0).val := by
  unfold DotDims.lhsIdx
  rw [dif_neg (show ¬(0 : Fin S400x32.rank) ∈ dot_S400x32_S32x32_S400x32_1_0_0_1_n_n.lhsBatch by decide), dif_pos (show (0 : Fin S400x32.rank) ∈ dot_S400x32_S32x32_S400x32_1_0_0_1_n_n.lhsNonContracting by decide)]
  rfl
/-- and the contraction position's column; -/
theorem lhs_hwc_1_1 (i : S400x32.Idx) (q : dot_S400x32_S32x32_S400x32_1_0_0_1_n_n.contr.Idx) :
    (dot_S400x32_S32x32_S400x32_1_0_0_1_n_n.lhsIdx i q 1).val = (q ⟨0, by decide⟩).val :=
  dot_S400x32_S32x32_S400x32_1_0_0_1_n_n.lhsIdx_val_of_single rfl i q
/-- its right operand at the contraction position's row -/
theorem rhs_hwc_0_1 (i : S400x32.Idx) (q : dot_S400x32_S32x32_S400x32_1_0_0_1_n_n.contr.Idx) :
    (dot_S400x32_S32x32_S400x32_1_0_0_1_n_n.rhsIdx i q 0).val = (q ⟨0, by decide⟩).val :=
  dot_S400x32_S32x32_S400x32_1_0_0_1_n_n.rhsIdx_val_of_single rfl i q
/-- and the output's column. -/
theorem rhs_hwc_1_1 (i : S400x32.Idx) (q : dot_S400x32_S32x32_S400x32_1_0_0_1_n_n.contr.Idx) :
    (dot_S400x32_S32x32_S400x32_1_0_0_1_n_n.rhsIdx i q 1).val = (i 1).val := by
  unfold DotDims.rhsIdx
  rw [dif_neg (show ¬(1 : Fin S32x32.rank) ∈ dot_S400x32_S32x32_S400x32_1_0_0_1_n_n.rhsBatch by decide), dif_pos (show (1 : Fin S32x32.rank) ∈ dot_S400x32_S32x32_S400x32_1_0_0_1_n_n.rhsNonContracting by decide)]
  rfl

/-- (hidden block · wc) at entry (p, q): the sum over the 32 hidden columns of row p against wc's column q. -/
theorem matmul_hwc_1 (l : FVec Ideal S400x32 .f32) (r : FVec Ideal S32x32 .f32) (p : Fin 400) (q : Fin 32) :
    matmul dot_S400x32_S32x32_S400x32_1_0_0_1_n_n none l r (constant (F := Ideal) S400x32 .f32 0x00000000#32) (ix2 p q)
      = ∑ k : Fin 32, l (ix2 p k) * r (ix2 k q) := by
  refine (Ideal.matmul_constant_zero_apply dot_S400x32_S32x32_S400x32_1_0_0_1_n_n none l r (ix2 p q)).trans ?_
  rw [← Equiv.sum_comp (contrEquiv1 dot_S400x32_S32x32_S400x32_1_0_0_1_n_n 32 rfl rfl).symm]
  refine Finset.sum_congr rfl fun k _ => ?_
  have hk := contrEquiv1_symm_val dot_S400x32_S32x32_S400x32_1_0_0_1_n_n 32 rfl rfl k
  have el : dot_S400x32_S32x32_S400x32_1_0_0_1_n_n.lhsIdx (ix2 p q) ((contrEquiv1 dot_S400x32_S32x32_S400x32_1_0_0_1_n_n 32 rfl rfl).symm k) = ix2 p k := funext fun a => Fin.ext (by
    match a with
    | ⟨0, _⟩ => exact lhs_hwc_0_1 _ _
    | ⟨1, _⟩ => exact (lhs_hwc_1_1 _ _).trans hk)
  have er : dot_S400x32_S32x32_S400x32_1_0_0_1_n_n.rhsIdx (ix2 p q) ((contrEquiv1 dot_S400x32_S32x32_S400x32_1_0_0_1_n_n 32 rfl rfl).symm k) = ix2 k q := funext fun a => Fin.ext (by
    match a with
    | ⟨0, _⟩ => exact (rhs_hwc_0_1 _ _).trans hk
    | ⟨1, _⟩ => exact rhs_hwc_1_1 _ _)
  rw [el, er]

/-! ## The body's arithmetic at an entry -/

/-- Entry (p, q) of what one point stores: over the 32 hidden columns k, the maximum of (row p of the adj block
    against column k of t0) and zero, times wc's entry (k, q). -/
theorem pay_apply_1 (x0 : Vec Ideal S400x10000 .f32) (x1 : Vec Ideal S10000x32 .f32) (x2 : Vec Ideal S32x32 .f32)
    (p : Fin 400) (q : Fin 32) :
    k1_pay1 (F := Ideal) x0 x1 x2 (ix2 p q)
      = ∑ k : Fin 32, max (∑ l : Fin 10000, x0 (ix2 p l) * x1 (ix2 l k)) 0 * x2 (ix2 k q) := by
  unfold k1_pay1
  simp only [shapeCast_self]
  refine (matmul_hwc_1 _ _ p q).trans ?_
  refine Finset.sum_congr rfl fun k _ => ?_
  refine congrArg (· * x2 (ix2 k q)) ?_
  rw [maximumf_apply, broadcast_apply]
  refine congrArg₂ max (matmul_adjt0_1 _ _ p k) ?_
  exact Ideal.ofBits_zero_f32

/-! ## The operand blocks as entries of their arrays -/

theorem hz_1 : (![0, 0] : Fin 2 → Nat) = fun _ => 0 := funext fun a => by fin_cases a <;> rfl

/-- The printed index maps over the 25 points: the adj window and the output window sit at block row t, block column 0;
    the two whole operands at block (0, 0). -/
theorem idx_facts_1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's row block is row 400·t + p of the array. -/
def row_1 (t : Fin cfg1.N) (p : Fin 400) : Fin 10000 :=
  ⟨400 * t.val + p.val, by have h : t.val < grid1.N := t.isLt; rw [N_1] at h; omega⟩

/-- The adj block at point t, entry (p, l), is adj's entry (400·t + p, l). -/
theorem iblk_adj_1 (c : Dev nD) (t : Fin cfg1.N) (p : Fin 400) (l : Fin 10000) :
    (iblk1 V c 0 t : Vec Ideal S400x10000 .f32) (ix2 p l) = (V c main_arg1 : Cert.Spec.Arr 10000 10000) (ix2 (row_1 t p) l) := by
  obtain ⟨e0, e1, -⟩ := idx_facts_1 t
  unfold iblk1
  rw [View.read_apply]
  show (V c main_arg1 : Cert.Spec.Arr 10000 10000) _ = _
  congr 1
  funext a
  apply Fin.ext
  match a with
  | ⟨0, _⟩ => show win1_0.index t (0 : Fin 2) * 400 + 1 * p.val = 400 * t.val + p.val; rw [e0]; omega
  | ⟨1, _⟩ => show win1_0.index t (1 : Fin 2) * 10000 + 1 * l.val = l.val; rw [e1]; omega

/-- The t0 block at any point is t0. -/
theorem iblk_t0_1 (c : Dev nD) (t : Fin cfg1.N) (l : Fin 10000) (k : Fin 32) :
    (iblk1 V c 1 t : Vec Ideal S10000x32 .f32) (ix2 l k) = (V c main_v1 : Cert.Spec.Arr 10000 32) (ix2 l k) := by
  obtain ⟨-, -, e2, e3, -⟩ := idx_facts_1 t
  unfold iblk1
  rw [View.read_apply]
  show (V c main_v1 : Cert.Spec.Arr 10000 32) _ = _
  congr 1
  funext a
  apply Fin.ext
  match a with
  | ⟨0, _⟩ => show win1_1.index t (0 : Fin 2) * 10000 + 1 * l.val = l.val; rw [e2]; omega
  | ⟨1, _⟩ => show win1_1.index t (1 : Fin 2) * 32 + 1 * k.val = k.val; rw [e3]; omega

/-- The wc block at any point is wc. -/
theorem iblk_wc_1 (c : Dev nD) (t : Fin cfg1.N) (k : Fin 32) (q : Fin 32) :
    (iblk1 V c 2 t : Vec Ideal S32x32 .f32) (ix2 k q) = (V c main_v0 : Cert.Spec.Arr 32 32) (ix2 k q) := by
  obtain ⟨-, -, -, -, e4, e5, -⟩ := idx_facts_1 t
  unfold iblk1
  rw [View.read_apply]
  show (V c main_v0 : Cert.Spec.Arr 32 32) _ = _
  congr 1
  funext a
  apply Fin.ext
  match a with
  | ⟨0, _⟩ => show win1_2.index t (0 : Fin 2) * 32 + 1 * k.val = k.val; rw [e4]; omega
  | ⟨1, _⟩ => show win1_2.index t (1 : Fin 2) * 32 + 1 * q.val = q.val; rw [e5]; omega

/-! ## What a point writes back -/

/-- Entry (p, q) of what point t stores is entry (400·t + p, q) of the stage's array. -/
theorem stored_entry_1 (c : Dev nD) (t : Fin cfg1.N) (p : Fin 400) (q : Fin 32) :
    k1_pay1 (F := Ideal) (iblk1 V c 0 t) (iblk1 V c 1 t) (iblk1 V c 2 t) (ix2 p q)
      = Cert.Spec.Carr (V c main_arg1) (V c main_v1) (V c main_v0) (ix2 (row_1 t p) q) := by
  refine (pay_apply_1 _ _ _ p q).trans ?_
  show _ = Cert.Spec.C (V c main_arg1) (V c main_v1) (V c main_v0) (row_1 t p) q
  unfold Cert.Spec.C
  refine Finset.sum_congr rfl fun k _ => ?_
  rw [iblk_wc_1]
  refine congrArg (· * _) ?_
  refine congrArg (max · 0) ?_
  refine Finset.sum_congr rfl fun l _ => ?_
  rw [iblk_adj_1, iblk_t0_1]

/-- WHAT POINT t WRITES BACK is block t of the stage's array. -/
theorem flushed_eq_1 (c : Dev nD) (t : Fin cfg1.N) :
    (dat1 V c).flushed 3 t
      = ((cfg1.win 3).blk t).view.read (Elt Ideal) (Cert.Spec.Carr (V c main_arg1) (V c main_v1) (V c main_v0)) := by
  show (cfg1.win 3).cut (grid1.coords t) ((dat1 V c).after 3 t) = _
  rw [after1_3]
  unfold out1_3
  rw [View.canon_unit_zero hz_1]
  simp only [View.ld_unit_zero (S := S400x10000) hz_1, View.ld_unit_zero (S := S10000x32) hz_1, View.ld_unit_zero (S := S32x32) hz_1]
  obtain ⟨-, -, -, -, -, -, e6, e7⟩ := idx_facts_1 t
  funext j
  -- the block's index as its two coordinates, and the array's index under it
  have hx : (cfg1.win 3).xinj (grid1.coords t) j = ix2 (j 0) (j 1) :=
    funext fun a => Fin.ext (by match a with | ⟨0, _⟩ => rfl | ⟨1, _⟩ => rfl)
  have hj : ((cfg1.win 3).blk t).view.emb j = ix2 (row_1 t (j 0)) (j 1) := by
    funext a; apply Fin.ext
    match a with
    | ⟨0, _⟩ => show win1_3.index t (0 : Fin 2) * 400 + 1 * (j 0).val = 400 * t.val + (j 0).val; rw [e6]; omega
    | ⟨1, _⟩ => show win1_3.index t (1 : Fin 2) * 32 + 1 * (j 1).val = (j 1).val; rw [e7]; omega
  rw [View.read_apply]
  refine Eq.trans (congrArg (k1_pay1 (F := Ideal) (iblk1 V c 0 t) (iblk1 V c 1 t) (iblk1 V c 2 t)) hx) ?_
  refine Eq.trans (stored_entry_1 V c t (j 0) (j 1)) ?_
  exact congrArg (Cert.Spec.Carr (V c main_arg1) (V c main_v1) (V c main_v0)) hj.symm

/-! ## From the blocks to the array -/

/-- An index of the array is in point t's block iff each coordinate is in the block's range on its axis. -/
theorem mem_blk_1 (t : Fin cfg1.N) (i : S10000x32.Idx) :
    i ∈ ((cfg1.win 3).blk t).view.set ↔ ∀ a : Fin 2, win1_3.index t a * S400x32.size a ≤ (i a).val ∧ (i a).val < win1_3.index t a * S400x32.size a + S400x32.size a := by
  show i ∈ ((View.whole main_v2).slice (win1_3.rect t)).set ↔ _
  rw [View.set_slice_whole, Rect.mem_set_unit]
  exact Iff.rfl

/-- Row r of the array lies in the block of point r / 400: the 25 row blocks cover the array. -/
theorem cover_1 (i : S10000x32.Idx) : ∃ t : Fin cfg1.N, (cfg1.win 3).flush t = true ∧ i ∈ ((cfg1.win 3).blk t).view.set := by
  have hi0 : (i 0).val < 10000 := (i 0).isLt
  have hi1 : (i 1).val < 32 := (i 1).isLt
  have ht : (i 0).val / 400 < grid1.N := by rw [N_1]; omega
  obtain ⟨-, -, -, -, -, -, e6, e7⟩ := idx_facts_1 ⟨(i 0).val / 400, ht⟩
  refine ⟨⟨(i 0).val / 400, ht⟩, flush1_3 _, ?_⟩
  rw [mem_blk_1]
  intro a
  match a with
  | ⟨0, _⟩ =>
    show win1_3.index ⟨(i 0).val / 400, ht⟩ (0 : Fin 2) * 400 ≤ (i 0).val ∧ (i 0).val < win1_3.index ⟨(i 0).val / 400, ht⟩ (0 : Fin 2) * 400 + 400
    rw [e6]; show (i 0).val / 400 * 400 ≤ (i 0).val ∧ (i 0).val < (i 0).val / 400 * 400 + 400; omega
  | ⟨1, _⟩ =>
    show win1_3.index ⟨(i 0).val / 400, ht⟩ (1 : Fin 2) * 32 ≤ (i 1).val ∧ (i 1).val < win1_3.index ⟨(i 0).val / 400, ht⟩ (1 : Fin 2) * 32 + 32
    rw [e7]; omega

/-- THE ARRAY after region 1: the stage's array of the three arrays the region reads, as it found them. -/
theorem final1 (c : Dev nD) : (dat1 (F := Ideal) V c).arrAt 3 cfg1.N = Cert.Spec.Carr (V c main_arg1) (V c main_v1) (V c main_v0) :=
  (dat1 V c).arrAt_eq_of_cover 3 _ (fun t _ => flushed_eq_1 V c t) (fun i => cover_1 i)

end Cert.KernelIdeal.KVal

end
-- ==== Proof.KI.Val2.lean ====
/-
  Region 2 of the kernel, read as a value: z = noise ⊙ exp ((adj · c)[:, 16:]) + (adj · c)[:, :16], a 10000 × 16 array.
  Point t of the 25 computes rows 400 t … 400 t + 399. Its body multiplies the 400-row block of adj by the whole of c
  (a 400 × 32 product), takes the exponential of the upper 16 columns, scales them entry by entry by the noise block
  and adds the lower 16 columns. Entry (p, j) of what it stores is therefore
      noise (400 t + p, j) · exp (∑ l, adj (400 t + p, l) · c (l, 16 + j)) + ∑ l, adj (400 t + p, l) · c (l, j),
  which is entry (400 t + p, j) of z; the 25 row blocks tile the output array, so the array ends holding z.
  No algebraic law is used: both sides are the same sums, read at the same indices.
-/
import proofs.«179463_g63213328662976_cont_sun_m_190_11_alg».proof.Proof.KI.Body0
import proofs.«179463_g63213328662976_cont_sun_m_190_11_alg».proof.Proof.KI.Body1
import proofs.«179463_g63213328662976_cont_sun_m_190_11_alg».proof.Proof.KI.Body2
import proofs.«179463_g63213328662976_cont_sun_m_190_11_alg».proof.Proof.KI.Body3
import proofs.«179463_g63213328662976_cont_sun_m_190_11_alg».proof.Proof.Spec
import Idealize.ShloMosaic.Lib.Pipeline.Value
import Idealize.ShloMosaic.Lib.ValueIdx
import Idealize.ShloMosaic.PureOps.Ideal.Laws

noncomputable section

namespace Cert.KernelIdeal.KVal

open Cert.KernelIdeal Cert.KernelIdeal.Gen Cert.KernelIdeal.Frame
open Idealize.ShloMosaic Idealize.ShloMosaic.TcCoe Idealize.SL.Sem Idealize.ShloMosaic.ValueIdx

variable (V : (c : Dev nD) → (b : Ref sig .tc) → Buf (Elt Ideal) ((c : Thread nD τ).loc b))

/-- The zero offsets of a whole-buffer rectangle, as a constant function. -/
theorem hz_2 : (![0, 0] : Fin 2 → Nat) = fun _ => 0 := funext fun a => by fin_cases a <;> rfl

/-! ## The product of a 400-row block of adj with c, at an index

The contraction runs over axis 1 of the left operand and axis 0 of the right: the left operand is read at
(row, l), the right at (l, column). -/

theorem lhs_mm_2_0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem lhs_mm_2_1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem rhs_mm_2_0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem rhs_mm_2_1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- Entry (p, q) of the block product: the sum over l of adj-block (p, l) times c (l, q). -/
theorem mm_apply_2 (x0 : Vec Ideal S400x10000 .f32) (x1 : Vec Ideal S10000x32 .f32) (p : Fin 400) (q : Fin 32) :
    matmul (φ₁ := .f32) (φ₂ := .f32) dot_S400x10000_S10000x32_S400x32_1_0_0_1_n_n none x0 x1 (constant (F := Ideal) S400x32 .f32 0x00000000#32) (ix2 p q)
      = ∑ l : Fin 10000, x0 (ix2 p l) * x1 (ix2 l q) := by
  refine (Ideal.matmul_constant_zero_apply (φ₁ := .f32) (φ₂ := .f32) dot_S400x10000_S10000x32_S400x32_1_0_0_1_n_n none x0 x1 (ix2 p q)).trans ?_
  rw [← Equiv.sum_comp (ValueIdx.contrEquiv1 dot_S400x10000_S10000x32_S400x32_1_0_0_1_n_n 10000 rfl rfl).symm]
  refine Finset.sum_congr rfl fun l _ => ?_
  have hl := ValueIdx.contrEquiv1_symm_val dot_S400x10000_S10000x32_S400x32_1_0_0_1_n_n 10000 rfl rfl l
  have el : dot_S400x10000_S10000x32_S400x32_1_0_0_1_n_n.lhsIdx (ix2 p q) ((ValueIdx.contrEquiv1 dot_S400x10000_S10000x32_S400x32_1_0_0_1_n_n 10000 rfl rfl).symm l) = ix2 p l := funext fun a => Fin.ext (by
    match a with
    | ⟨0, _⟩ => exact lhs_mm_2_0 _ _
    | ⟨1, _⟩ => exact (lhs_mm_2_1 _ _).trans hl)
  have er : dot_S400x10000_S10000x32_S400x32_1_0_0_1_n_n.rhsIdx (ix2 p q) ((ValueIdx.contrEquiv1 dot_S400x10000_S10000x32_S400x32_1_0_0_1_n_n 10000 rfl rfl).symm l) = ix2 l q := funext fun a => Fin.ext (by
    match a with
    | ⟨0, _⟩ => exact (rhs_mm_2_0 _ _).trans hl
    | ⟨1, _⟩ => exact rhs_mm_2_1 _ _)
  rw [el, er]

/-! ## The body's payload at an index -/

/-- Entry (p, j) of what the body stores: the noise entry times the exponential of column 16 + j of the block
    product, plus column j of it. -/
theorem pay_apply_2 (x0 : Vec Ideal S400x10000 .f32) (x1 : Vec Ideal S10000x32 .f32) (x2 : Vec Ideal S400x16 .f32)
    (p : Fin 400) (j : Fin 16) :
    k2_pay1 (F := Ideal) x0 x1 x2 (ix2 p j)
      = x2 (ix2 p j) * Ideal.exp (∑ l : Fin 10000, x0 (ix2 p l) * x1 (ix2 l (Cert.Spec.hi16 j)))
        + ∑ l : Fin 10000, x0 (ix2 p l) * x1 (ix2 l (Cert.Spec.lo16 j)) := by
  unfold k2_pay1
  rw [shapeCast_self]
  have hhi : extractStridedSlice S400x16 ![0, 16]
        (matmul (φ₁ := .f32) (φ₂ := .f32) dot_S400x10000_S10000x32_S400x32_1_0_0_1_n_n none x0 x1 (constant (F := Ideal) S400x32 .f32 0x00000000#32))
        slices_S400x32_o0_16_S400x16 (ix2 p j)
      = ∑ l : Fin 10000, x0 (ix2 p l) * x1 (ix2 l (Cert.Spec.hi16 j)) :=
    (extractStridedSlice_apply _ _ _ (ix2 p j) (ix2 p (Cert.Spec.hi16 j)) (fun a => by
      match a with
      | ⟨0, _⟩ => show p.val = 0 + p.val; omega
      | ⟨1, _⟩ => show 16 + j.val = 16 + j.val; rfl)).trans (mm_apply_2 x0 x1 p (Cert.Spec.hi16 j))
  have hlo : extractStridedSlice S400x16 ![0, 0]
        (matmul (φ₁ := .f32) (φ₂ := .f32) dot_S400x10000_S10000x32_S400x32_1_0_0_1_n_n none x0 x1 (constant (F := Ideal) S400x32 .f32 0x00000000#32))
        slices_S400x32_o0_0_S400x16 (ix2 p j)
      = ∑ l : Fin 10000, x0 (ix2 p l) * x1 (ix2 l (Cert.Spec.lo16 j)) :=
    (extractStridedSlice_apply _ _ _ (ix2 p j) (ix2 p (Cert.Spec.lo16 j)) (fun a => by
      match a with
      | ⟨0, _⟩ => show p.val = 0 + p.val; omega
      | ⟨1, _⟩ => show j.val = 0 + j.val; omega)).trans (mm_apply_2 x0 x1 p (Cert.Spec.lo16 j))
  refine (addf_apply _ _ _).trans ?_
  refine congrArg₂ (· + ·) ?_ hlo
  refine (mulf_apply _ _ _).trans ?_
  exact congrArg (x2 (ix2 p j) * ·) (congrArg Ideal.exp hhi)

/-! ## The blocks of a point

Point t handles rows 400 t … 400 t + 399: the adj, noise and output windows sit at block (t, 0) of their arrays, and the
whole operand c at block (0, 0). A block's coordinate in its array is the block index times the block size plus the
coordinate inside the block. -/

/-- The windows' block indices at every point of the grid. -/
theorem idx_facts_2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Entry (p, l) of the adj block at point t is entry (400 t + p, l) of adj. -/
theorem adjblk_apply_2 (c : Dev nD) (t : Fin cfg2.N) (p : Fin 400) (l : Fin 10000) (r : Fin 10000)
    (hr : r.val = t.val * 400 + p.val) :
    (iblk2 V c 0 t : Vec Ideal S400x10000 .f32) (ix2 p l) = (V c main_arg1 : S10000x10000.Idx → EReal) (ix2 r l) := by
  obtain ⟨e0, e1, -⟩ := idx_facts_2 t
  unfold iblk2
  rw [View.read_apply]
  show V c main_arg1 _ = V c main_arg1 _
  congr 1
  funext a
  apply Fin.ext
  match a with
  | ⟨0, _⟩ => show win2_0.index t (0 : Fin 2) * 400 + 1 * p.val = r.val; rw [e0, hr]; omega
  | ⟨1, _⟩ => show win2_0.index t (1 : Fin 2) * 10000 + 1 * l.val = l.val; rw [e1]; omega

/-- The c block at every point is the whole of c. -/
theorem cblk_apply_2 (c : Dev nD) (t : Fin cfg2.N) (l : Fin 10000) (q : Fin 32) :
    (iblk2 V c 1 t : Vec Ideal S10000x32 .f32) (ix2 l q) = (V c main_v2 : S10000x32.Idx → EReal) (ix2 l q) := by
  obtain ⟨-, -, e0, e1, -⟩ := idx_facts_2 t
  unfold iblk2
  rw [View.read_apply]
  show V c main_v2 _ = V c main_v2 _
  congr 1
  funext a
  apply Fin.ext
  match a with
  | ⟨0, _⟩ => show win2_1.index t (0 : Fin 2) * 10000 + 1 * l.val = l.val; rw [e0]; omega
  | ⟨1, _⟩ => show win2_1.index t (1 : Fin 2) * 32 + 1 * q.val = q.val; rw [e1]; omega

/-- Entry (p, j) of the noise block at point t is entry (400 t + p, j) of the noise. -/
theorem noiseblk_apply_2 (c : Dev nD) (t : Fin cfg2.N) (p : Fin 400) (j : Fin 16) (r : Fin 10000)
    (hr : r.val = t.val * 400 + p.val) :
    (iblk2 V c 2 t : Vec Ideal S400x16 .f32) (ix2 p j) = (V c main_arg2 : S10000x16.Idx → EReal) (ix2 r j) := by
  obtain ⟨-, -, -, -, e0, e1, -⟩ := idx_facts_2 t
  unfold iblk2
  rw [View.read_apply]
  show V c main_arg2 _ = V c main_arg2 _
  congr 1
  funext a
  apply Fin.ext
  match a with
  | ⟨0, _⟩ => show win2_2.index t (0 : Fin 2) * 400 + 1 * p.val = r.val; rw [e0, hr]; omega
  | ⟨1, _⟩ => show win2_2.index t (1 : Fin 2) * 16 + 1 * j.val = j.val; rw [e1]; omega

/-- Entry (p, j) of the output block at point t sits at (400 t + p, j) of the output array. -/
theorem outblk_emb_2 (t : Fin cfg2.N) (p : Fin 400) (j : Fin 16) (r : Fin 10000) (hr : r.val = t.val * 400 + p.val) :
    ((cfg2.win 3).blk t).view.emb (ix2 p j) = (ix2 r j : S10000x16.Idx) := by
  obtain ⟨-, -, -, -, -, -, e0, e1⟩ := idx_facts_2 t
  funext a
  apply Fin.ext
  match a with
  | ⟨0, _⟩ => show win2_3.index t (0 : Fin 2) * 400 + 1 * p.val = r.val; rw [e0, hr]; omega
  | ⟨1, _⟩ => show win2_3.index t (1 : Fin 2) * 16 + 1 * j.val = j.val; rw [e1]; omega

/-! ## What a point writes back -/

/-- Point t writes back block t of z = noise ⊙ exp (adj · c)[:, 16:] + (adj · c)[:, :16]. -/
theorem flushed_eq_2 (c : Dev nD) (t : Fin cfg2.N) :
    (dat2 (F := Ideal) V c).flushed 3 t
      = ((cfg2.win 3).blk t).view.read (Elt Ideal) (Cert.Spec.Zarr (V c main_arg1) (V c main_v2) (V c main_arg2)) := by
  show (cfg2.win 3).cut (grid2.coords t) ((dat2 (F := Ideal) V c).after 3 t) = _
  rw [after2_3]
  unfold out2_3
  rw [View.canon_unit_zero hz_2]
  simp only [View.ld_unit_zero (S := S400x10000) hz_2, View.ld_unit_zero (S := S10000x32) hz_2, View.ld_unit_zero (S := S400x16) hz_2]
  funext y
  obtain ⟨p, j, rfl⟩ : ∃ (p : Fin 400) (j : Fin 16), y = ix2 p j := ⟨y 0, y 1, eq_ix2 y⟩
  have ht : t.val < 25 := lt_of_lt_of_eq t.isLt N_2
  let r : Fin 10000 := ⟨t.val * 400 + p.val, by have := p.isLt; omega⟩
  have hr : r.val = t.val * 400 + p.val := rfl
  refine (pay_apply_2 (iblk2 V c 0 t) (iblk2 V c 1 t) (iblk2 V c 2 t) p j).trans ?_
  refine Eq.trans ?_ (congrArg (Cert.Spec.Zarr (V c main_arg1) (V c main_v2) (V c main_arg2)) (outblk_emb_2 t p j r hr)).symm
  show _ = Cert.Spec.Z (V c main_arg1) (V c main_v2) (V c main_arg2) r j
  unfold Cert.Spec.Z
  rw [noiseblk_apply_2 V c t p j r hr]
  simp only [adjblk_apply_2 V c t p _ r hr, cblk_apply_2 V c t]

/-! ## From the blocks to the array -/

/-- An index of the output array is in point t's block iff each coordinate is in the block's range on its axis. -/
theorem mem_blk_2 (t : Fin cfg2.N) (i : S10000x16.Idx) :
    i ∈ ((cfg2.win 3).blk t).view.set ↔ ∀ a : Fin 2, win2_3.index t a * S400x16.size a ≤ (i a).val ∧ (i a).val < win2_3.index t a * S400x16.size a + S400x16.size a := by
  show i ∈ ((View.whole main_v3).slice (win2_3.rect t)).set ↔ _
  rw [View.set_slice_whole, Rect.mem_set_unit]
  exact Iff.rfl

/-- Row r of the output lies in the block of point r / 400, which is written back: the 25 row blocks tile the array. -/
theorem cover_2 (i : S10000x16.Idx) :
    ∃ t : Fin cfg2.N, (cfg2.win 3).flush t = true ∧ i ∈ ((cfg2.win 3).blk t).view.set := by
  have hi0 : (i 0).val < 10000 := (i 0).isLt
  have hi1 : (i 1).val < 16 := (i 1).isLt
  let t : Fin cfg2.N := ⟨(i 0).val / 400, by rw [show cfg2.N = 25 from N_2]; omega⟩
  have ht : t.val = (i 0).val / 400 := rfl
  obtain ⟨-, -, -, -, -, -, e0, e1⟩ := idx_facts_2 t
  refine ⟨t, flush2_3 t, ?_⟩
  rw [mem_blk_2]
  intro a
  match a with
  | ⟨0, _⟩ =>
    show win2_3.index t (0 : Fin 2) * 400 ≤ (i 0).val ∧ (i 0).val < win2_3.index t (0 : Fin 2) * 400 + 400
    rw [e0, ht]; omega
  | ⟨1, _⟩ =>
    show win2_3.index t (1 : Fin 2) * 16 ≤ (i 1).val ∧ (i 1).val < win2_3.index t (1 : Fin 2) * 16 + 16
    rw [e1]; omega

/-- After the region the output array holds z, whole: every point writes back its block of z and the blocks tile it. -/
theorem final2 (c : Dev nD) : (dat2 (F := Ideal) V c).arrAt 3 cfg2.N = Cert.Spec.Zarr (V c main_arg1) (V c main_v2) (V c main_arg2) :=
  (dat2 (F := Ideal) V c).arrAt_eq_of_cover 3 (Cert.Spec.Zarr (V c main_arg1) (V c main_v2) (V c main_arg2))
    (fun t _ => flushed_eq_2 V c t) cover_2

end Cert.KernelIdeal.KVal

end
-- ==== Proof.KI.Result.lean ====
/-
  What the kernel's result array holds at the end of @main, at the ideal instance, as one function of the argument
  arrays: the four regions' stages composed. Region 3 reads z as region 2 left it, region 2 reads c as region 1 left it
  and the arguments adj and noise as launched, region 1 reads t0 as region 0 left it, adj as launched and the 32 × 32
  matrix the host concatenation wrote, which at an index is W_mu in its low 16 columns and W_logstd in its high 16.
-/
import proofs.«179463_g63213328662976_cont_sun_m_190_11_alg».proof.Proof.KI.Val0
import proofs.«179463_g63213328662976_cont_sun_m_190_11_alg».proof.Proof.KI.Val1
import proofs.«179463_g63213328662976_cont_sun_m_190_11_alg».proof.Proof.KI.Val2
import proofs.«179463_g63213328662976_cont_sun_m_190_11_alg».proof.Proof.KI.Fold
import proofs.«179463_g63213328662976_cont_sun_m_190_11_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.KVal

open Cert.KernelIdeal Cert.KernelIdeal.Gen Cert.KernelIdeal.Frame
open Idealize.ShloMosaic Idealize.ShloMosaic.TcCoe Idealize.SL.Sem Idealize.ShloMosaic.ValueIdx

variable (m : (ℓ : Loc nD τ sig) → Buf (Elt Ideal) ℓ)

/-- The host concatenation's result, as region 1 finds it. -/
theorem wc_val (c : Dev nD) :
    U2 m c main_v0 = concatenate S32x32 1 [⟨S32x16, m ((c : Thread nD τ).loc main_arg4)⟩, ⟨S32x16, m ((c : Thread nD τ).loc main_arg5)⟩] concatenates_S32x16_S32x16_S32x32_d1 := by
  refine (W2_of_ne m c main_v0 (by decide)).trans ?_
  show StableHlo.after hostOps0 (W0 m c) (Proc.devRef .tc main_v0) = _
  after_results

/-- Read at an index: W_mu in the low 16 columns, W_logstd in the high 16. -/
theorem wc_eq (c : Dev nD) :
    (U2 m c main_v0 : Cert.Spec.Arr 32 32) = Cert.Spec.catW (m ((c : Thread nD τ).loc main_arg4)) (m ((c : Thread nD τ).loc main_arg5)) := by
  rw [wc_val]
  funext i
  obtain ⟨k, j, rfl⟩ : ∃ (k : Fin 32) (j : Fin 32), i = ix2 k j := ⟨i 0, i 1, eq_ix2 i⟩
  show _ = Cert.Spec.catWf _ _ k j
  unfold Cert.Spec.catWf
  by_cases h : j.val < 16
  · rw [dif_pos h]
    exact concatenate_pair_apply_left (t := S32x32) (s₁ := S32x16) (s₂ := S32x16) (1 : Fin 2) _ _ concatenates_S32x16_S32x16_S32x32_d1
      (ix2 k j) rfl (ix2 k (⟨j.val, h⟩ : Fin 16) : S32x16.Idx)
      (fun b => match b with | ⟨0, _⟩ => rfl | ⟨1, _⟩ => rfl)
  · rw [dif_neg h]
    have hj : j.val < 32 := j.isLt
    exact concatenate_pair_apply_right (t := S32x32) (s₁ := S32x16) (s₂ := S32x16) (1 : Fin 2) _ _ concatenates_S32x16_S32x16_S32x32_d1
      (ix2 k j) rfl rfl (ix2 k (⟨j.val - 16, by omega⟩ : Fin 16) : S32x16.Idx)
      (fun b hb => match b, hb with | ⟨0, _⟩, _ => rfl | ⟨1, _⟩, hb => absurd rfl hb)
      (by show j.val - 16 + 16 = j.val; omega)

/-- adj, as each of regions 1 and 2 finds it: as launched. -/
theorem adj2 (c : Dev nD) : U2 m c main_arg1 = m ((c : Thread nD τ).loc main_arg1) :=
  (W2_of_ne m c main_arg1 (by decide)).trans (W1_of_ne m c main_arg1 (by decide))
theorem adj3 (c : Dev nD) : U3 m c main_arg1 = m ((c : Thread nD τ).loc main_arg1) :=
  ((W3_arr m c 0).trans (((dat1 (U2 m) c).arrAt_in 0 rfl _).trans (A_eq1 (U2 m) c 0))).trans (adj2 m c)
/-- The noise, as region 2 finds it: as launched. -/
theorem noise3 (c : Dev nD) : U3 m c main_arg2 = m ((c : Thread nD τ).loc main_arg2) :=
  (W3_of_ne m c main_arg2 (by decide)).trans ((W2_of_ne m c main_arg2 (by decide)).trans (W1_of_ne m c main_arg2 (by decide)))
/-- x and W0, as region 0 finds them: as launched. -/
theorem x1 (c : Dev nD) : U1 m c main_arg0 = m ((c : Thread nD τ).loc main_arg0) := W1_of_ne m c main_arg0 (by decide)
theorem w01 (c : Dev nD) : U1 m c main_arg3 = m ((c : Thread nD τ).loc main_arg3) := W1_of_ne m c main_arg3 (by decide)

/-- t0 as region 1 finds it. -/
theorem t0_val (c : Dev nD) :
    (U2 m c main_v1 : Cert.Spec.Arr 10000 32) = Cert.Spec.T0arr (m ((c : Thread nD τ).loc main_arg0)) (m ((c : Thread nD τ).loc main_arg3)) := by
  refine ((W2_arr m c 2).trans (final0 (U1 m) c)).trans ?_
  rw [x1, w01]

/-- c as region 2 finds it. -/
theorem c_val (c : Dev nD) :
    (U3 m c main_v2 : Cert.Spec.Arr 10000 32) = Cert.Spec.Carr (m ((c : Thread nD τ).loc main_arg1))
      (Cert.Spec.T0arr (m ((c : Thread nD τ).loc main_arg0)) (m ((c : Thread nD τ).loc main_arg3)))
      (Cert.Spec.catW (m ((c : Thread nD τ).loc main_arg4)) (m ((c : Thread nD τ).loc main_arg5))) := by
  refine ((W3_arr m c 3).trans (final1 (U2 m) c)).trans ?_
  rw [adj2, t0_val, wc_eq]

/-- z as region 3 finds it. -/
theorem z_val (c : Dev nD) :
    (U4 m c main_v3 : Cert.Spec.Arr 10000 16) = Cert.Spec.Zarr (m ((c : Thread nD τ).loc main_arg1))
      (Cert.Spec.Carr (m ((c : Thread nD τ).loc main_arg1))
        (Cert.Spec.T0arr (m ((c : Thread nD τ).loc main_arg0)) (m ((c : Thread nD τ).loc main_arg3)))
        (Cert.Spec.catW (m ((c : Thread nD τ).loc main_arg4)) (m ((c : Thread nD τ).loc main_arg5))))
      (m ((c : Thread nD τ).loc main_arg2)) := by
  refine ((W4_arr m c 3).trans (final2 (U3 m) c)).trans ?_
  rw [adj3, c_val, noise3]

/-- THE RESULT ARRAY at the end of @main is the kernel's function of the arguments. -/
theorem result_val (c : Dev nD) :
    ((dat3 (U4 m) c).arrAt 2 cfg3.N : Cert.Spec.Arr 10000 10000) = Cert.Spec.kernelOut (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5)) := by
  refine (final3 (U4 m) c).trans ?_
  rw [z_val]
  rfl

end Cert.KernelIdeal.KVal

end
-- ==== Proof.RefSpec.lean ====
/-
  The reference program, read one stage at a time at explicit coordinates, is the specification's function:
    hidden = max (adj · (x · W0)) 0,  mu = adj · (hidden · W_mu),  logstd = adj · (hidden · W_logstd),
    z = noise ⊙ exp logstd + mu,  result = 1 / (1 + exp (−(z · zᵀ))).
  Each stage's entry at (r, k) is a sum of products of the operands' entries at the coordinates the contraction names;
  the only facts used are that an index built from two coordinates has those coordinates, that the word 0x00000000 is
  the extended real 0 and the word 0x3F800000 is 1, and that the logistic is by definition 1 / (1 + exp (−x)).
-/
import proofs.«179463_g63213328662976_cont_sun_m_190_11_alg».proof.Proof.Gen.ReferenceIdeal.Read
import proofs.«179463_g63213328662976_cont_sun_m_190_11_alg».proof.Proof.Spec

noncomputable section

namespace Cert.ReferenceIdeal.RefValue

open Cert.ReferenceIdeal Cert.ReferenceIdeal.Read
open Idealize.ShloMosaic Idealize.ShloMosaic.ValueIdx

/-- The six argument arrays' types. -/
abbrev TX := (⟨S10000x128, .f32⟩ : BufTy).Contents (Elt Ideal)
abbrev TA := (⟨S10000x10000, .f32⟩ : BufTy).Contents (Elt Ideal)
abbrev TN := (⟨S10000x16, .f32⟩ : BufTy).Contents (Elt Ideal)
abbrev TW0 := (⟨S128x32, .f32⟩ : BufTy).Contents (Elt Ideal)
abbrev TW := (⟨S32x16, .f32⟩ : BufTy).Contents (Elt Ideal)

/-! ## The contraction's coordinates at an index given by coordinates -/

theorem lidx_v0 (r : Fin 10000) (k : Fin 32) (l : Fin 128) : lidx_main_v0 (ix2 r k) l = ix2 r l :=
  funext fun a => match a with | ⟨0, _⟩ => rfl | ⟨1, _⟩ => rfl
theorem ridx_v0 (r : Fin 10000) (k : Fin 32) (l : Fin 128) : ridx_main_v0 (ix2 r k) l = ix2 l k :=
  funext fun a => match a with | ⟨0, _⟩ => rfl | ⟨1, _⟩ => rfl
theorem lidx_v1 (r : Fin 10000) (k : Fin 32) (l : Fin 10000) : lidx_main_v1 (ix2 r k) l = ix2 r l :=
  funext fun a => match a with | ⟨0, _⟩ => rfl | ⟨1, _⟩ => rfl
theorem ridx_v1 (r : Fin 10000) (k : Fin 32) (l : Fin 10000) : ridx_main_v1 (ix2 r k) l = ix2 l k :=
  funext fun a => match a with | ⟨0, _⟩ => rfl | ⟨1, _⟩ => rfl
theorem lidx_v3 (r : Fin 10000) (j : Fin 16) (k : Fin 32) : lidx_main_v3 (ix2 r j) k = ix2 r k :=
  funext fun a => match a with | ⟨0, _⟩ => rfl | ⟨1, _⟩ => rfl
theorem ridx_v3 (r : Fin 10000) (j : Fin 16) (k : Fin 32) : ridx_main_v3 (ix2 r j) k = ix2 k j :=
  funext fun a => match a with | ⟨0, _⟩ => rfl | ⟨1, _⟩ => rfl
theorem lidx_v4 (r : Fin 10000) (j : Fin 16) (l : Fin 10000) : lidx_main_v4 (ix2 r j) l = ix2 r l :=
  funext fun a => match a with | ⟨0, _⟩ => rfl | ⟨1, _⟩ => rfl
theorem ridx_v4 (r : Fin 10000) (j : Fin 16) (l : Fin 10000) : ridx_main_v4 (ix2 r j) l = ix2 l j :=
  funext fun a => match a with | ⟨0, _⟩ => rfl | ⟨1, _⟩ => rfl
theorem lidx_v5 (r : Fin 10000) (j : Fin 16) (k : Fin 32) : lidx_main_v5 (ix2 r j) k = ix2 r k :=
  funext fun a => match a with | ⟨0, _⟩ => rfl | ⟨1, _⟩ => rfl
theorem ridx_v5 (r : Fin 10000) (j : Fin 16) (k : Fin 32) : ridx_main_v5 (ix2 r j) k = ix2 k j :=
  funext fun a => match a with | ⟨0, _⟩ => rfl | ⟨1, _⟩ => rfl
theorem lidx_v6 (r : Fin 10000) (j : Fin 16) (l : Fin 10000) : lidx_main_v6 (ix2 r j) l = ix2 r l :=
  funext fun a => match a with | ⟨0, _⟩ => rfl | ⟨1, _⟩ => rfl
theorem ridx_v6 (r : Fin 10000) (j : Fin 16) (l : Fin 10000) : ridx_main_v6 (ix2 r j) l = ix2 l j :=
  funext fun a => match a with | ⟨0, _⟩ => rfl | ⟨1, _⟩ => rfl
theorem idx_v10 (k : Fin 16) (s : Fin 10000) : idx_main_v10 (ix2 k s) = ix2 s k :=
  funext fun a => match a with | ⟨0, _⟩ => rfl | ⟨1, _⟩ => rfl
theorem lidx_v11 (r s : Fin 10000) (k : Fin 16) : lidx_main_v11 (ix2 r s) k = ix2 r k :=
  funext fun a => match a with | ⟨0, _⟩ => rfl | ⟨1, _⟩ => rfl
theorem ridx_v11 (r s : Fin 10000) (k : Fin 16) : ridx_main_v11 (ix2 r s) k = ix2 k s :=
  funext fun a => match a with | ⟨0, _⟩ => rfl | ⟨1, _⟩ => rfl

/-! ## The two literals -/

/-- The word 0x3F800000 (sign 0, exponent 127, fraction 0) is the extended real 1. -/
theorem ofBits_one_f32 : Ideal.ofBits .f32 0x3F800000#32 = 1 := by
  simp [Ideal.ofBits, Ideal.ieee]
  rw [← EReal.coe_mul, ← EReal.coe_one]
  norm_num

/-! ## The stages at coordinates -/

/-- x · W0 at (r, k). -/
theorem v0_at (x0 : TX) (x3 : TW0) (r : Fin 10000) (k : Fin 32) :
    val_main_v0 (F := Ideal) x0 x3 (ix2 r k) = Cert.Spec.T0 x0 x3 r k := by
  rw [val_main_v0_apply]
  unfold Cert.Spec.T0
  exact Finset.sum_congr rfl fun l _ => by rw [lidx_v0, ridx_v0]

/-- adj · (x · W0) at (r, k). -/
theorem v1_at (x0 : TX) (x1 : TA) (x3 : TW0) (r : Fin 10000) (k : Fin 32) :
    val_main_v1 (F := Ideal) x0 x1 x3 (ix2 r k) = ∑ l : Fin 10000, x1 (ix2 r l) * Cert.Spec.T0 x0 x3 l k := by
  rw [val_main_v1_apply]
  exact Finset.sum_congr rfl fun l _ => by rw [lidx_v1, ridx_v1, v0_at]

/-- hidden at (r, k). -/
theorem v2_at (x0 : TX) (x1 : TA) (x3 : TW0) (r : Fin 10000) (k : Fin 32) :
    val_main_v2 (F := Ideal) x0 x1 x3 (ix2 r k) = Cert.Spec.hid x0 x1 x3 r k := by
  rw [val_main_v2_apply, v1_at, val_main_call0_v0_apply, val_main_call0_cst_apply, Ideal.maximumf_def, Ideal.ofBits_def,
    Ideal.ofBits_zero_f32]
  rfl

/-- hidden · W_mu at (r, j). -/
theorem v3_at (x0 : TX) (x1 : TA) (x3 : TW0) (x4 : TW) (r : Fin 10000) (j : Fin 16) :
    val_main_v3 (F := Ideal) x0 x1 x3 x4 (ix2 r j) = ∑ k : Fin 32, Cert.Spec.hid x0 x1 x3 r k * x4 (ix2 k j) := by
  rw [val_main_v3_apply]
  exact Finset.sum_congr rfl fun k _ => by rw [lidx_v3, ridx_v3, v2_at]

/-- mu at (r, j). -/
theorem v4_at (x0 : TX) (x1 : TA) (x3 : TW0) (x4 : TW) (r : Fin 10000) (j : Fin 16) :
    val_main_v4 (F := Ideal) x0 x1 x3 x4 (ix2 r j) = Cert.Spec.head x0 x1 x3 x4 r j := by
  rw [val_main_v4_apply]
  unfold Cert.Spec.head
  exact Finset.sum_congr rfl fun l _ => by rw [lidx_v4, ridx_v4, v3_at]

/-- hidden · W_logstd at (r, j). -/
theorem v5_at (x0 : TX) (x1 : TA) (x3 : TW0) (x5 : TW) (r : Fin 10000) (j : Fin 16) :
    val_main_v5 (F := Ideal) x0 x1 x3 x5 (ix2 r j) = ∑ k : Fin 32, Cert.Spec.hid x0 x1 x3 r k * x5 (ix2 k j) := by
  rw [val_main_v5_apply]
  exact Finset.sum_congr rfl fun k _ => by rw [lidx_v5, ridx_v5, v2_at]

/-- logstd at (r, j). -/
theorem v6_at (x0 : TX) (x1 : TA) (x3 : TW0) (x5 : TW) (r : Fin 10000) (j : Fin 16) :
    val_main_v6 (F := Ideal) x0 x1 x3 x5 (ix2 r j) = Cert.Spec.head x0 x1 x3 x5 r j := by
  rw [val_main_v6_apply]
  unfold Cert.Spec.head
  exact Finset.sum_congr rfl fun l _ => by rw [lidx_v6, ridx_v6, v5_at]

/-- z at (r, j). -/
theorem v9_at (x0 : TX) (x1 : TA) (x2 : TN) (x3 : TW0) (x4 x5 : TW) (r : Fin 10000) (j : Fin 16) :
    val_main_v9 (F := Ideal) x0 x1 x2 x3 x4 x5 (ix2 r j) = Cert.Spec.zRef x0 x1 x2 x3 x4 x5 r j := by
  rw [val_main_v9_apply, val_main_v8_apply, val_main_v7_apply, v6_at, v4_at, Ideal.addf_def, Ideal.mulf_def,
    Ideal.hostUnary_exp_def]
  rfl

/-- z · zᵀ at (r, s). -/
theorem v11_at (x0 : TX) (x1 : TA) (x2 : TN) (x3 : TW0) (x4 x5 : TW) (r s : Fin 10000) :
    val_main_v11 (F := Ideal) x0 x1 x2 x3 x4 x5 (ix2 r s)
      = ∑ k : Fin 16, Cert.Spec.zRef x0 x1 x2 x3 x4 x5 r k * Cert.Spec.zRef x0 x1 x2 x3 x4 x5 s k := by
  rw [val_main_v11_apply]
  exact Finset.sum_congr rfl fun k _ => by rw [lidx_v11, ridx_v11, val_main_v10_apply, idx_v10, v9_at, v9_at]

/-- The result at (r, s): 1 / (1 + exp (−(z · zᵀ))) is the logistic of z · zᵀ. -/
theorem v17_at (x0 : TX) (x1 : TA) (x2 : TN) (x3 : TW0) (x4 x5 : TW) (r s : Fin 10000) :
    val_main_v17 (F := Ideal) x0 x1 x2 x3 x4 x5 (ix2 r s) = Cert.Spec.refOutF x0 x1 x2 x3 x4 x5 r s := by
  rw [val_main_v17_apply, val_main_v16_apply, val_main_cst_0_apply, val_main_v15_apply, val_main_v14_apply,
    val_main_cst_apply, val_main_v13_apply, val_main_v12_apply, v11_at, Ideal.hostDivf_def, Ideal.addf_def,
    Ideal.hostUnary_exp_def, Ideal.hostNegf_def, Ideal.negf_def, Ideal.ofBits_def, ofBits_one_f32]
  rfl

theorem ref_is_spec (x0 : (⟨S10000x128, .f32⟩ : BufTy).Contents (Elt Ideal)) (x1 : (⟨S10000x10000, .f32⟩ : BufTy).Contents (Elt Ideal)) (x2 : (⟨S10000x16, .f32⟩ : BufTy).Contents (Elt Ideal)) (x3 : (⟨S128x32, .f32⟩ : BufTy).Contents (Elt Ideal)) (x4 x5 : (⟨S32x16, .f32⟩ : BufTy).Contents (Elt Ideal)) :
    val_main_v17 (F := Ideal) x0 x1 x2 x3 x4 x5 = Cert.Spec.refOut x0 x1 x2 x3 x4 x5 := by
  funext i
  obtain ⟨r, s, rfl⟩ : ∃ (r s : Fin 10000), i = ix2 r s := ⟨i 0, i 1, eq_ix2 i⟩
  rw [v17_at]
  rfl

end Cert.ReferenceIdeal.RefValue

end
-- ==== Proof.lean ====
/-
  The certificate of the VGAE forward kernel against its jnp reference, over the extended reals.

  The kernel is four pallas_calls: t0 = x · W0 (one un-gridded call); c = max (adj · t0) 0 · [W_mu | W_logstd], 400 rows per
  grid point; z = noise ⊙ exp ((adj · c)[:, 16:]) + (adj · c)[:, :16], 400 rows per point; out = logistic (z_block · zᵀ),
  400 rows per point, its two operands two windows on the one array z. The reference computes
  hidden = max (adj · (x · W0)) 0, mu = adj · (hidden · W_mu), logstd = adj · (hidden · W_logstd),
  z = noise ⊙ exp logstd + mu and 1 / (1 + exp (−(z · zᵀ))).

  At the ideal instance every matrix product, on the matrix unit or on the host, is the plain sum over the contracted
  index, the logistic is 1 / (1 + exp (−·)) on both sides, and a column of hidden · [W_mu | W_logstd] is the same column
  of hidden · W_mu or of hidden · W_logstd: the two results are one function of the arguments, index by index, with no
  law of arithmetic beyond reading a concatenation at an index (Proof/Spec.lean). No finiteness of the inputs is used.

  The frames: each kernel program runs as a host concatenation and four pipelined regions; every region's body loads its
  blocks, computes, and stores one piece covering its output block, so the regions' proof data name every buffer's
  contents and the launch over the five segments gives termination, no fault, the arguments unchanged, and the result
  array at what the last region's write-backs leave (Proof/KI/Run.lean for the idealized program, Proof/K/Run.lean, the
  same text, for the word-level one). The reference is a straight-line host program: its frame is its run.
  The ideal pass rewrote nothing, so `preserves` has no conjunct.
-/
import proofs.«179463_g63213328662976_cont_sun_m_190_11_alg».proof.Defs
import proofs.«179463_g63213328662976_cont_sun_m_190_11_alg».proof.Proof.Gen.Kernel
import proofs.«179463_g63213328662976_cont_sun_m_190_11_alg».proof.Proof.Gen.KernelIdeal
import proofs.«179463_g63213328662976_cont_sun_m_190_11_alg».proof.Proof.Gen.ReferenceIdeal
import proofs.«179463_g63213328662976_cont_sun_m_190_11_alg».proof.Proof.Gen.Pre_finite_inputs
import proofs.«179463_g63213328662976_cont_sun_m_190_11_alg».proof.Proof.Gen.ReferenceIdeal.Run
import proofs.«179463_g63213328662976_cont_sun_m_190_11_alg».proof.Proof.Gen.ReferenceIdeal.Read
import proofs.«179463_g63213328662976_cont_sun_m_190_11_alg».proof.Proof.K.Run
import proofs.«179463_g63213328662976_cont_sun_m_190_11_alg».proof.Proof.KI.Run
import proofs.«179463_g63213328662976_cont_sun_m_190_11_alg».proof.Proof.KI.Result
import proofs.«179463_g63213328662976_cont_sun_m_190_11_alg».proof.Proof.RefSpec
import proofs.«179463_g63213328662976_cont_sun_m_190_11_alg».proof.Proof.Spec

noncomputable section

namespace Cert.Proof

open Idealize.ShloMosaic Idealize.ShloMosaic.TcCoe Idealize.SL.Sem

/-- The word-level kernel runs to the end, faults nowhere and leaves its arguments as launched. -/
theorem frame_k : Cert.frame_Kernel := fun m ρ _ =>
  (θ_run Cert.Kernel.defs _ _).mono (fun _ h c => (h c).2) (Cert.Kernel.Frame.run (F := Bits) m ρ)

/-- So does the idealized kernel. -/
theorem frame_ki : Cert.frame_KernelIdeal := fun m ρ _ =>
  (θ_run Cert.KernelIdeal.defs _ _).mono (fun _ h c => (h c).2) (Cert.KernelIdeal.Frame.run (F := Ideal) m ρ)

/-- The reference is a host program: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the result array at the one function of
    the arguments: the kernel's four stages composed, which is the reference's chain of products. -/
theorem algebraic : Cert.algebraic_KernelIdeal_ReferenceIdeal := by
  intro m ρ m' ρ' _ hagree
  refine ⟨fun c => Cert.Spec.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KVal.result_val m c), (h c).2⟩)
      (Cert.KernelIdeal.Frame.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, Cert.ReferenceIdeal.RefValue.ref_is_spec,
      (hagree c).1, (hagree c).2.1, (hagree c).2.2.1, (hagree c).2.2.2.1, (hagree c).2.2.2.2.1, (hagree c).2.2.2.2.2]
    exact (Cert.Spec.kernelOut_eq_refOut _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
